-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S512x1024 .f32 .bf16
  ∧ IdealRules.truncf_extf.Statement Cert.KernelIdeal.S512x1024 .f32 .bf16
  ∧ IdealRules.truncf_extf.Statement Cert.KernelIdeal.S512x1024 .f32 .bf16
  ∧ IdealRules.truncf_extf.Statement Cert.KernelIdeal.S512x1024 .f32 .bf16
  ∧ IdealRules.truncf_extf.Statement Cert.KernelIdeal.S512x1024 .f32 .bf16
  ∧ IdealRules.truncf_extf.Statement Cert.KernelIdeal.S512x1024 .f32 .bf16
  ∧ IdealRules.truncf_extf.Statement Cert.KernelIdeal.S512x1024 .f32 .bf16
  ∧ IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S4096x4096 .f32) (main_arg3 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S8192x4096 : Shape := ⟨2, ![8192, 4096]⟩
abbrev S512x1024 : Shape := ⟨2, ![512, 1024]⟩
abbrev S1024x1024 : Shape := ⟨2, ![1024, 1024]⟩

abbrev nBuf : Space → Nat
  | .hbm => 11
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S8192x4096, .f32⟩
  | .hbm, ⟨5, _⟩ => ⟨S4096x4096, .bf16⟩
  | .hbm, ⟨6, _⟩ => ⟨S4096x4096, .bf16⟩
  | .hbm, ⟨7, _⟩ => ⟨S4096x4096, .bf16⟩
  | .hbm, ⟨8, _⟩ => ⟨S8192x4096, .bf16⟩
  | .hbm, ⟨9, _⟩ => ⟨S8192x4096, .f32⟩
  | .hbm, ⟨10, _⟩ => ⟨S4x2048x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![16, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S4x2048x4096_S8192x4096 : S4x2048x4096.ShapeCasts S8192x4096
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S8192x4096_S4x2048x4096 : S8192x4096.ShapeCasts S4x2048x4096
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x4096.size a
  hwx0_3 : ∀ i : grid0.Coords, EltTy.bits .bf16 = 32 ∨ (Rect.block (s := S8192x4096) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x4096.size a
  hwx1_0 : ∀ i : grid1.Coords, EltTy.bits .bf16 = 32 ∨ (Rect.block (s := S8192x4096) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x4096.size a
  hwx1_2 : ∀ i : grid1.Coords, EltTy.bits .f32 = 32 ∨ (Rect.block (s := S8192x4096) S512x1024.size (cc1_transform_2 i) (hinb1_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v4) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4x2048x4096, .bf16⟩
  | .hbm, ⟨5, _⟩ => ⟨S4x2048x4096, .f32⟩
  | .hbm, ⟨6, _⟩ => ⟨S4096x4096, .bf16⟩
  | .hbm, ⟨7, _⟩ => ⟨S4096x4096, .f32⟩
  | .hbm, ⟨8, _⟩ => ⟨S4x2048x4096, .f32⟩
  | .hbm, ⟨9, _⟩ => ⟨S4x2048x4096, .bf16⟩
  | .hbm, ⟨10, _⟩ => ⟨S4x2048x4096, .f32⟩
  | .hbm, ⟨11, _⟩ => ⟨S4x2048x4096, .bf16⟩
  | .hbm, ⟨12, _⟩ => ⟨S4x2048x4096, .f32⟩
  | .hbm, ⟨13, _⟩ => ⟨S4096x4096, .bf16⟩
  | .hbm, ⟨14, _⟩ => ⟨S4096x4096, .f32⟩
  | .hbm, ⟨15, _⟩ => ⟨S4x2048x4096, .f32⟩
  | .hbm, ⟨16, _⟩ => ⟨S4x2048x4096, .bf16⟩
  | .hbm, ⟨17, _⟩ => ⟨S4x2048x4096, .f32⟩
  | .hbm, ⟨18, _⟩ => ⟨S4x2048x4096, .bf16⟩
  | .hbm, ⟨19, _⟩ => ⟨S4x2048x4096, .f32⟩
  | .hbm, ⟨20, _⟩ => ⟨S4x2048x4096, .f32⟩
  | .hbm, ⟨21, _⟩ => ⟨S4x2048x4096, .f32⟩
  | .hbm, ⟨22, _⟩ => ⟨S4x2048x4096, .bf16⟩
  | .hbm, ⟨23, _⟩ => ⟨S4x2048x4096, .f32⟩
  | .hbm, ⟨24, _⟩ => ⟨S_, .f32⟩
  | .hbm, ⟨25, _⟩ => ⟨S4x2048x4096, .f32⟩
  | .hbm, ⟨26, _⟩ => ⟨S4x2048x4096, .f32⟩
  | .hbm, ⟨27, _⟩ => ⟨S4x2048x4096, .f32⟩
  | .hbm, ⟨28, _⟩ => ⟨S_, .f32⟩
  | .hbm, ⟨29, _⟩ => ⟨S4x2048x4096, .f32⟩
  | .hbm, ⟨30, _⟩ => ⟨S4x2048x4096, .f32⟩
  | .hbm, ⟨31, _⟩ => ⟨S4x2048x4096, .bf16⟩
  | .hbm, ⟨32, _⟩ => ⟨S4x2048x4096, .f32⟩
  | .hbm, ⟨33, _⟩ => ⟨S4x2048x4096, .f32⟩
  | .hbm, ⟨34, _⟩ => ⟨S4x2048x4096, .bf16⟩
  | .hbm, ⟨35, _⟩ => ⟨S4x2048x4096, .f32⟩
  | .hbm, ⟨36, _⟩ => ⟨S_, .f32⟩
  | .hbm, ⟨37, _⟩ => ⟨S4x2048x4096, .f32⟩
  | .hbm, ⟨38, _⟩ => ⟨S4x2048x4096, .f32⟩
  | .hbm, ⟨39, _⟩ => ⟨S_, .f32⟩
  | .hbm, ⟨40, _⟩ => ⟨S4x2048x4096, .f32⟩
  | .hbm, ⟨41, _⟩ => ⟨S4x2048x4096, .f32⟩
  | .hbm, ⟨42, _⟩ => ⟨S4x2048x4096, .f32⟩
  | .hbm, ⟨43, _⟩ => ⟨S4x2048x4096, .bf16⟩
  | .hbm, ⟨44, _⟩ => ⟨S4x2048x4096, .f32⟩
  | .hbm, ⟨45, _⟩ => ⟨S4x2048x4096, .bf16⟩
  | .hbm, ⟨46, _⟩ => ⟨S4x2048x4096, .f32⟩
  | .hbm, ⟨47, _⟩ => ⟨S4x2048x4096, .bf16⟩
  | .hbm, ⟨48, _⟩ => ⟨S4x2048x4096, .f32⟩
  | .hbm, ⟨49, _⟩ => ⟨S4x2048x4096, .f32⟩
  | .hbm, ⟨50, _⟩ => ⟨S4x2048x4096, .bf16⟩
  | .hbm, ⟨51, _⟩ => ⟨S4x2048x4096, .f32⟩
  | .hbm, ⟨52, _⟩ => ⟨S4x2048x4096, .bf16⟩
  | .hbm, ⟨53, _⟩ => ⟨S4x2048x4096, .f32⟩
  | .hbm, ⟨54, _⟩ => ⟨S4096x4096, .bf16⟩
  | .hbm, ⟨55, _⟩ => ⟨S4096x4096, .f32⟩
  | .hbm, ⟨56, _⟩ => ⟨S4x2048x4096, .f32⟩
  | .hbm, ⟨57, _⟩ => ⟨S4x2048x4096, .bf16⟩
  | .hbm, ⟨58, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩

abbrev nD : Nat := 1
abbrev τ : Topo := Topo.v7x

variable {F : FTy → Type} [FloatOps F]

class Facts₀ : Prop where
  bitsLt_bf16_f32 : FTy.bits .bf16 < FTy.bits .f32
  bcast_S_S4x2048x4096 : S_.BroadcastsInDim S4x2048x4096 (![] : Fin 0 → Fin S4x2048x4096.rank)
  dot_S4x2048x4096_S4096x4096_S4x2048x4096_2_0_01_1_n_n_wf : DotDims.WF S4x2048x4096 S4096x4096 S4x2048x4096 [2] [0] [0, 1] [1] [] []

variable [Facts₀]

def dot_S4x2048x4096_S4096x4096_S4x2048x4096_2_0_01_1_n_n : DotDims S4x2048x4096 S4096x4096 S4x2048x4096 where
  lhsContracting := [2]
  rhsContracting := [0]
  lhsNonContracting := [0, 1]
  rhsNonContracting := [1]
  lhsBatch := []
  rhsBatch := []
  wf := dot_S4x2048x4096_S4096x4096_S4x2048x4096_2_0_01_1_n_n_wf

class Facts : Prop extends Facts₀ where

variable [Facts]
-- ==== Proof.Frame.BitsGateUp.lean ====
/-
  The first kernel region, the fused gate and up projections with the GELU gating, as a pipeline over a 16 × 4 × 4
  grid whose last axis walks the contracted features in four blocks of 1024. The body keeps two 512 × 1024
  accumulators in scratch between points: at the first block of a reduction it resets both to zero, at every block it
  adds to each the product of the activations' 512 × 1024 block with that projection's 1024 × 1024 weight block, and
  at the last block it stores the tanh-form GELU of the gate accumulator times the up accumulator into the output
  window, which is written back there and only there. Stated here, at any float instance: what each of the three
  kinds of point does to the buffers, what the accumulators hold after every point (by recursion on the point), the
  invariant that carries them from point to point, and the body obligation of the pipeline rule.
-/
import proofs.«154968_j42142219108650_1_alg».proof.Proof.Gen.Kernel.Launch
import proofs.«154968_j42142219108650_1_alg».proof.Proof.Gen.Kernel.Skeleton
import proofs.«154968_j42142219108650_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.GateUp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions of the gate/up body, over the grid -/

/-- The first conditional of the body: the reduction coordinate is zero (both accumulators are reset). -/
abbrev cond0 (i : grid0.Coords) : Prop := (Scalar.cmpi .ne (Scalar.extui (Scalar.cmpi .eq (BitVec.ofNat 32 (i 2).val) 0#32)) 0#32) = 1#1
/-- The second conditional: the reduction coordinate is the last one (the gated product is emitted). -/
abbrev cond1 (i : grid0.Coords) : Prop := k0_cond2 i = 1#1

theorem zero_S512x1024 : (![0, 0] : Fin S512x1024.rank → Nat) = fun _ => 0 := by funext a; fin_cases a <;> rfl
theorem zero_S1024x1024 : (![0, 0] : Fin S1024x1024.rank → Nat) = fun _ => 0 := by funext a; fin_cases a <;> rfl

set_option maxHeartbeats 2000000 in
/-- A point in the middle of a reduction: each accumulator gains the product of the activations' block with its
    weight block; the output buffer is not touched. -/
theorem run_B (c : Dev nD) (i : grid0.Coords) (arg3 : Memref sig .tc .vmem S512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole)
    (hc0 : ¬cond0 i) (hc1 : ¬cond1 i)
    (x0 : Vec F S512x1024 .f32) (x1 x2 : Vec F S1024x1024 .bf16) (xi : Vec F S512x1024 .bf16) (xg xu : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare xg ∗ owns (c : Thread nD τ) arg8 fullShare xu
        ∗ (iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare (k0_pay4 x0 xg x1) ∗ owns (c : Thread nD τ) arg8 fullShare (k0_pay5 x0 xu x2)) -∗ K ⟨⟩))
      ⊢ wp frame (wpE (defs₀ (F := F)) Variants.none c none) E (cc0__gateup_kernel i arg3 harg3 arg4 harg4 arg5 harg5 arg6 harg6 arg7 harg7 arg8 harg8) K := by
  simp only [cc0__gateup_kernel_eq_skeleton]; unfold cc0__gateup_kernel_skel
  unfold owns
  iintro ⟨⟨%f0, %hf0, H0⟩, ⟨%f1, %hf1, H1⟩, ⟨%f2, %hf2, H2⟩, ⟨%f3, %hf3, H3⟩, ⟨%fg, %hfg, HG⟩, ⟨%fu, %hfu, HU⟩, Hk⟩
  obtain rfl := harg3.eq_unread hf0; obtain rfl := harg4.eq_unread hf1; obtain rfl := harg5.eq_unread hf2; obtain rfl := harg6.eq_unread hf3; obtain rfl := harg7.eq_unread hfg; obtain rfl := harg8.eq_unread hfu
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [HG]
  · iexists _; isplitr
    swap; · iexact HG
    ipureintro
    sl_unfold_words
    rw [View.read_writes_eq_canon _ _ _ (fun y => ⟨_, List.mem_cons.mpr (Or.inl rfl), View.mem_set_unit_zero zero_S512x1024 inb_S512x1024_S512x1024_0_0 y⟩),
      View.canon_cons_unit_zero zero_S512x1024]
    simp only [View.readCov_unit_zero (S := S512x1024) _ zero_S512x1024 inb_S512x1024_S512x1024_0_0, View.readAt_eq_ld, hf0, hf1, hf2, hfg, hfu, View.ld_unit_zero (S := S512x1024) zero_S512x1024, View.ld_unit_zero (S := S1024x1024) zero_S1024x1024]
  iexists _; isplitr
  swap; · iexact HU
  ipureintro
  sl_unfold_words
  rw [View.read_writes_eq_canon _ _ _ (fun y => ⟨_, List.mem_cons.mpr (Or.inl rfl), View.mem_set_unit_zero zero_S512x1024 inb_S512x1024_S512x1024_0_0 y⟩),
    View.canon_cons_unit_zero zero_S512x1024]
  simp only [View.readCov_unit_zero (S := S512x1024) _ zero_S512x1024 inb_S512x1024_S512x1024_0_0, View.readAt_eq_ld, hf0, hf1, hf2, hfg, hfu, View.ld_unit_zero (S := S512x1024) zero_S512x1024, View.ld_unit_zero (S := S1024x1024) zero_S1024x1024]

set_option maxHeartbeats 2000000 in
/-- The first point of a reduction: both accumulators, whatever they held, are reset to zero and gain the product
    of the activations' block with their weight block. -/
theorem run_A (c : Dev nD) (i : grid0.Coords) (arg3 : Memref sig .tc .vmem S512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole)
    (hc0 : cond0 i) (hc1 : ¬cond1 i)
    (x0 : Vec F S512x1024 .f32) (x1 x2 : Vec F S1024x1024 .bf16) (xi : Vec F S512x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare (k0_pay4 x0 (k0_pay1 (F := F)) x1) ∗ owns (c : Thread nD τ) arg8 fullShare (k0_pay5 x0 (k0_pay2 (F := F)) x2)) -∗ K ⟨⟩))
      ⊢ wp frame (wpE (defs₀ (F := F)) Variants.none c none) E (cc0__gateup_kernel i arg3 harg3 arg4 harg4 arg5 harg5 arg6 harg6 arg7 harg7 arg8 harg8) K := by
  simp only [cc0__gateup_kernel_eq_skeleton]; unfold cc0__gateup_kernel_skel
  unfold owns
  iintro ⟨⟨%f0, %hf0, H0⟩, ⟨%f1, %hf1, H1⟩, ⟨%f2, %hf2, H2⟩, ⟨%f3, %hf3, H3⟩, ⟨%dg, %fg, -, HG⟩, ⟨%du, %fu, -, HU⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [HG]
  · iexists _; isplitr
    swap; · iexact HG
    ipureintro
    sl_unfold_words
    rw [View.read_writes_eq_canon _ _ _ (fun y => ⟨_, List.mem_cons.mpr (Or.inl rfl), View.mem_set_unit_zero zero_S512x1024 inb_S512x1024_S512x1024_0_0 y⟩),
      View.canon_cons_unit_zero zero_S512x1024]
    simp only [View.readCov_unit_zero (S := S512x1024) _ zero_S512x1024 inb_S512x1024_S512x1024_0_0, View.readAt_eq_ld, hf0, hf1, hf2, View.ld_unit_zero (S := S512x1024) zero_S512x1024, View.ld_unit_zero (S := S1024x1024) zero_S1024x1024]
  iexists _; isplitr
  swap; · iexact HU
  ipureintro
  sl_unfold_words
  rw [View.read_writes_eq_canon _ _ _ (fun y => ⟨_, List.mem_cons.mpr (Or.inl rfl), View.mem_set_unit_zero zero_S512x1024 inb_S512x1024_S512x1024_0_0 y⟩),
    View.canon_cons_unit_zero zero_S512x1024]
  simp only [View.readCov_unit_zero (S := S512x1024) _ zero_S512x1024 inb_S512x1024_S512x1024_0_0, View.readAt_eq_ld, hf0, hf1, hf2, View.ld_unit_zero (S := S512x1024) zero_S512x1024, View.ld_unit_zero (S := S1024x1024) zero_S1024x1024]

set_option maxHeartbeats 2000000 in
/-- The last point of a reduction: each accumulator gains its product, and the output buffer, whatever it held,
    receives the gated product of the two finished accumulators. -/
theorem run_C (c : Dev nD) (i : grid0.Coords) (arg3 : Memref sig .tc .vmem S512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole)
    (hc0 : ¬cond0 i) (hc1 : cond1 i)
    (x0 : Vec F S512x1024 .f32) (x1 x2 : Vec F S1024x1024 .bf16) (xg xu : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xg ∗ owns (c : Thread nD τ) arg8 fullShare xu
        ∗ (iprop(owns (c : Thread nD τ) arg3 fullShare x0 ∗ owns (c : Thread nD τ) arg4 fullShare x1 ∗ owns (c : Thread nD τ) arg5 fullShare x2 ∗ owns (c : Thread nD τ) arg6 fullShare (k0_pay6 (k0_pay4 x0 xg x1) (k0_pay5 x0 xu x2)) ∗ owns (c : Thread nD τ) arg7 fullShare (k0_pay4 x0 xg x1) ∗ owns (c : Thread nD τ) arg8 fullShare (k0_pay5 x0 xu x2)) -∗ K ⟨⟩))
      ⊢ wp frame (wpE (defs₀ (F := F)) Variants.none c none) E (cc0__gateup_kernel i arg3 harg3 arg4 harg4 arg5 harg5 arg6 harg6 arg7 harg7 arg8 harg8) K := by
  simp only [cc0__gateup_kernel_eq_skeleton]; unfold cc0__gateup_kernel_skel
  unfold owns
  iintro ⟨⟨%f0, %hf0, H0⟩, ⟨%f1, %hf1, H1⟩, ⟨%f2, %hf2, H2⟩, ⟨%d3, %f3, -, H3⟩, ⟨%fg, %hfg, HG⟩, ⟨%fu, %hfu, HU⟩, Hk⟩
  obtain rfl := harg3.eq_unread hf0; obtain rfl := harg4.eq_unread hf1; obtain rfl := harg5.eq_unread hf2; obtain rfl := harg7.eq_unread hfg; obtain rfl := harg8.eq_unread hfu
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_words
    rw [View.read_writes_eq_canon _ _ _ (fun y => ⟨_, List.mem_cons.mpr (Or.inl rfl), View.mem_set_unit_zero zero_S512x1024 inb_S512x1024_S512x1024_0_0 y⟩),
      View.canon_cons_unit_zero zero_S512x1024]
    simp only [View.readCov_unit_zero (S := S512x1024) _ zero_S512x1024 inb_S512x1024_S512x1024_0_0, View.readAt_eq_ld, hf0, hf1, hf2, hfg, hfu, View.ld_unit_zero (S := S512x1024) zero_S512x1024, View.ld_unit_zero (S := S1024x1024) zero_S1024x1024]
  isplitl [HG]
  · iexists _; isplitr
    swap; · iexact HG
    ipureintro
    sl_unfold_words
    rw [View.read_writes_eq_canon _ _ _ (fun y => ⟨_, List.mem_cons.mpr (Or.inl rfl), View.mem_set_unit_zero zero_S512x1024 inb_S512x1024_S512x1024_0_0 y⟩),
      View.canon_cons_unit_zero zero_S512x1024]
    simp only [View.readCov_unit_zero (S := S512x1024) _ zero_S512x1024 inb_S512x1024_S512x1024_0_0, View.readAt_eq_ld, hf0, hf1, hf2, hfg, hfu, View.ld_unit_zero (S := S512x1024) zero_S512x1024, View.ld_unit_zero (S := S1024x1024) zero_S1024x1024]
  iexists _; isplitr
  swap; · iexact HU
  ipureintro
  sl_unfold_words
  rw [View.read_writes_eq_canon _ _ _ (fun y => ⟨_, List.mem_cons.mpr (Or.inl rfl), View.mem_set_unit_zero zero_S512x1024 inb_S512x1024_S512x1024_0_0 y⟩),
    View.canon_cons_unit_zero zero_S512x1024]
  simp only [View.readCov_unit_zero (S := S512x1024) _ zero_S512x1024 inb_S512x1024_S512x1024_0_0, View.readAt_eq_ld, hf0, hf1, hf2, hfg, hfu, View.ld_unit_zero (S := S512x1024) zero_S512x1024, View.ld_unit_zero (S := S1024x1024) zero_S1024x1024]

/-! ## The region at the contents it is entered with

Everything below is stated at a parameter `V`: what every buffer of the core holds when the region is entered. -/

section Region

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds its block at every point, fetched there or not. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The gate weight's staging buffer holds its block at every point, fetched there or not. -/
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The up weight's staging buffer holds its block at every point, fetched there or not. -/
theorem before_in2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The conditions in closed form: the reduction coordinate is the point modulo 4 -/

theorem hcond0 : ∀ t : Fin cfg0.N, cond0 (grid0.coords t) ↔ t.val % 4 = 0 :=
  (by decide +kernel : ∀ t : Fin grid0.N, cond0 (grid0.coords t) ↔ t.val % 4 = 0)
theorem hcond1 : ∀ t : Fin cfg0.N, cond1 (grid0.coords t) ↔ t.val % 4 = 3 :=
  (by decide +kernel : ∀ t : Fin grid0.N, cond1 (grid0.coords t) ↔ t.val % 4 = 3)

/-- The output window is idle wherever the gated product is not emitted, -/
theorem idle_out (i : grid0.Coords) (h : ¬cond1 i) : cfg0.idle 3 i = true := by
  have e : (k0_cond2 i == 1#1) = false := beq_eq_false_iff_ne.mpr h
  show (!(k0_cond2 i == 1#1)) = true
  rw [e]; rfl
/-- live where it is, -/
theorem live_out (i : grid0.Coords) (h : cond1 i) : cfg0.idle 3 i = false := by
  have e : (k0_cond2 i == 1#1) = true := beq_iff_eq.mpr h
  show (!(k0_cond2 i == 1#1)) = false
  rw [e]; rfl
/-- and written back only there. -/
theorem noflush_out (t : Fin cfg0.N) (h : ¬t.val % 4 = 3) : (cfg0.win 3).flush t = false := by
  cases hf : (cfg0.win 3).flush t
  · rfl
  · exact absurd ((flush0_3 t).mp hf) h

/-! ## The two accumulators, point by point -/

/-- What the gate accumulator holds after point `n`: at the first point of a reduction (`n ≡ 0 mod 4`) zero plus
    the product of that point's activation and gate-weight blocks, afterwards what the point before left plus this
    point's product. -/
def accG (c : Dev nD) : (n : ℕ) → n < cfg0.N → Vec F S512x1024 .f32
  | 0, hn => k0_pay4 (iblk V c 0 ⟨0, hn⟩) (k0_pay1 (F := F)) (iblk V c 1 ⟨0, hn⟩)
  | n + 1, hn =>
    if (n + 1) % 4 = 0 then k0_pay4 (iblk V c 0 ⟨n + 1, hn⟩) (k0_pay1 (F := F)) (iblk V c 1 ⟨n + 1, hn⟩)
    else k0_pay4 (iblk V c 0 ⟨n + 1, hn⟩) (accG c n (Nat.lt_of_succ_lt hn)) (iblk V c 1 ⟨n + 1, hn⟩)

/-- The same for the up accumulator, with the up-weight blocks. -/
def accU (c : Dev nD) : (n : ℕ) → n < cfg0.N → Vec F S512x1024 .f32
  | 0, hn => k0_pay5 (iblk V c 0 ⟨0, hn⟩) (k0_pay2 (F := F)) (iblk V c 2 ⟨0, hn⟩)
  | n + 1, hn =>
    if (n + 1) % 4 = 0 then k0_pay5 (iblk V c 0 ⟨n + 1, hn⟩) (k0_pay2 (F := F)) (iblk V c 2 ⟨n + 1, hn⟩)
    else k0_pay5 (iblk V c 0 ⟨n + 1, hn⟩) (accU c n (Nat.lt_of_succ_lt hn)) (iblk V c 2 ⟨n + 1, hn⟩)

theorem accG_reset (c : Dev nD) (t : Fin cfg0.N) (h : t.val % 4 = 0) :
    accG V c t.val t.isLt = k0_pay4 (iblk V c 0 t) (k0_pay1 (F := F)) (iblk V c 1 t) := by
  obtain ⟨n, hn⟩ := t
  cases n with
  | zero => rfl
  | succ n => exact if_pos h

theorem accG_step (c : Dev nD) (t : Fin cfg0.N) (h : ¬t.val % 4 = 0) :
    accG V c t.val t.isLt = k0_pay4 (iblk V c 0 t) (accG V c (t.val - 1) (Nat.lt_of_le_of_lt (Nat.sub_le _ _) t.isLt)) (iblk V c 1 t) := by
  obtain ⟨n, hn⟩ := t
  cases n with
  | zero => exact absurd (Nat.zero_mod _) h
  | succ n => exact if_neg h

theorem accU_reset (c : Dev nD) (t : Fin cfg0.N) (h : t.val % 4 = 0) :
    accU V c t.val t.isLt = k0_pay5 (iblk V c 0 t) (k0_pay2 (F := F)) (iblk V c 2 t) := by
  obtain ⟨n, hn⟩ := t
  cases n with
  | zero => rfl
  | succ n => exact if_pos h

theorem accU_step (c : Dev nD) (t : Fin cfg0.N) (h : ¬t.val % 4 = 0) :
    accU V c t.val t.isLt = k0_pay5 (iblk V c 0 t) (accU V c (t.val - 1) (Nat.lt_of_le_of_lt (Nat.sub_le _ _) t.isLt)) (iblk V c 2 t) := by
  obtain ⟨n, hn⟩ := t
  cases n with
  | zero => exact absurd (Nat.zero_mod _) h
  | succ n => exact if_neg h

/-! ## The invariant -/

/-- The two accumulator scratches as memrefs. -/
abbrev gM : Memref sig .tc .vmem S512x1024 .f32 := Memref.whole cc0_scratch0
abbrev uM : Memref sig .tc .vmem S512x1024 .f32 := Memref.whole cc0_scratch1

/-- The core's scoped buffers this region neither stages nor uses (the other region's), each at some contents. -/
def others (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_scratch0), ((c : Thread nD τ).loc cc1_scratch0) ↦{fullShare} f))

/-- What the region is handed before its first point: both accumulators at anything, the other scoped buffers, the generator register. -/
theorem PhiA_open (c : Dev nD) :
    (Pipeline.ΦA spec0 c : sProp 𝕄) ⊢ iprop((∃ d, owns (c : Thread nD τ) gM fullShare d) ∗ (∃ d, owns (c : Thread nD τ) uM fullShare d) ∗ others (F := F) c ∗ (∃ r, prngReg c r)) := by
  unfold Pipeline.ΦA others; rw [scopedRest0_eq]; simp only [gM, uM, owns_whole]
  iintro ⟨⟨HG, HU, B0, B1, B2, B3, B4, B5, B6⟩, Hg⟩
  isplitl [HG]; · iexact HG
  isplitl [HU]; · iexact HU
  isplitl [B0 B1 B2 B3 B4 B5 B6]
  · isplitl [B0]; · iexact B0
    isplitl [B1]; · iexact B1
    isplitl [B2]; · iexact B2
    isplitl [B3]; · iexact B3
    isplitl [B4]; · iexact B4
    isplitl [B5]; · iexact B5
    iexact B6
  iexact Hg

/-- And the same given back. -/
theorem PhiA_close (c : Dev nD) :
    iprop((∃ d, owns (c : Thread nD τ) gM fullShare d) ∗ (∃ d, owns (c : Thread nD τ) uM fullShare d) ∗ others (F := F) c ∗ (∃ r, prngReg c r)) ⊢ (Pipeline.ΦA spec0 c : sProp 𝕄) := by
  unfold Pipeline.ΦA others; rw [scopedRest0_eq]; simp only [gM, uM, owns_whole]
  iintro ⟨HG, HU, ⟨B0, B1, B2, B3, B4, B5, B6⟩, Hg⟩
  isplitl [HG HU B0 B1 B2 B3 B4 B5 B6]
  · isplitl [HG]; · iexact HG
    isplitl [HU]; · iexact HU
    isplitl [B0]; · iexact B0
    isplitl [B1]; · iexact B1
    isplitl [B2]; · iexact B2
    isplitl [B3]; · iexact B3
    isplitl [B4]; · iexact B4
    isplitl [B5]; · iexact B5
    iexact B6
  iexact Hg

/-- The region's invariant before position `n`: before the first point what the region is handed; afterwards each
    accumulator at what the point before left in it, the other scoped buffers and the generator register. -/
def PhiS (c : Dev nD) : (n : ℕ) → n ≤ cfg0.N → sProp 𝕄
  | 0, _ => Pipeline.ΦA spec0 c
  | n + 1, hn => iprop(owns (c : Thread nD τ) gM fullShare (accG V c n hn) ∗ owns (c : Thread nD τ) uM fullShare (accU V c n hn) ∗ others (F := F) c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) gM fullShare (accG V c n hn) ∗ owns (c : Thread nD τ) uM fullShare (accU V c n hn) ∗ others (F := F) c ∗ (∃ r, prngReg c r)) := rfl

theorem PhiS_pos (c : Dev nD) (n : ℕ) (h : n ≤ cfg0.N) (hz : n ≠ 0) :
    PhiS V c n h = iprop(owns (c : Thread nD τ) gM fullShare (accG V c (n - 1) (by omega)) ∗ owns (c : Thread nD τ) uM fullShare (accU V c (n - 1) (by omega)) ∗ others (F := F) c ∗ (∃ r, prngReg c r)) := by
  cases n with
  | zero => exact absurd rfl hz
  | succ n => rfl

/-! ## The proof data -/

/-- The region's proof data on core `c`: the arrays as the region finds them; after the body each input's buffer
    at its block and the output's at the gated product of that point's accumulators; the invariant `PhiS`; nothing
    owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay6 (accG V c t.val t.isLt) (accU V c t.val t.isLt)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = k0_pay6 (accG V c t.val t.isLt) (accU V c t.val t.isLt) := by dsimp only [dat]

theorem before_0 (c : Dev nD) (t : Fin cfg0.N) (d) : (dat V c).before 0 t d = iblk V c 0 t :=
  before_in0_of V (dat V c) (A_eq V c 0) (after_0 V c) t d
theorem before_1 (c : Dev nD) (t : Fin cfg0.N) (d) : (dat V c).before 1 t d = iblk V c 1 t :=
  before_in1_of V (dat V c) (A_eq V c 1) (after_1 V c) t d
theorem before_2 (c : Dev nD) (t : Fin cfg0.N) (d) : (dat V c).before 2 t d = iblk V c 2 t :=
  before_in2_of V (dat V c) (A_eq V c 2) (after_2 V c) t d

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The point modulo 4 says which of the three runs applies; the invariant hands the body the
    two accumulators at what the point before left (at anything at the very first point, and at a reset point their
    contents are not looked at), and takes them back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st0_0 t) fullShare ((dat V c).after 0 t) from rfl, after_0]
  rw [show (dat V c).leavesExact 1 t = owns (c : Thread nD τ) (st0_1 t) fullShare ((dat V c).after 1 t) from rfl, after_1]
  rw [show (dat V c).leavesExact 2 t = owns (c : Thread nD τ) (st0_2 t) fullShare ((dat V c).after 2 t) from rfl, after_2]
  by_cases h0 : t.val % 4 = 0
  · have h1 : ¬t.val % 4 = 3 := by omega
    have hc0 : cond0 (grid0.coords t) := (hcond0 t).mpr h0
    have hc1 : ¬cond1 (grid0.coords t) := fun h => h1 ((hcond1 t).mp h)
    rw [Dat.leavesExact_idle (dat V c) 3 t (idle_out _ hc1) (noflush_out t h1)]
    rw [accG_reset V c t h0, accU_reset V c t h0]
    by_cases hz : t.val = 0
    · rw [Phi_castSucc V c t, PhiS_zero V c _ _ hz]
      iintro ⟨HΦ, Ho, ⟨%d0, H0⟩, ⟨%d1, H1⟩, ⟨%d2, H2⟩, ⟨%d3, H3⟩⟩
      ihave HΦ' := (PhiA_open (F := F) c) $$ HΦ
      icases HΦ' with ⟨HG, HU, Hoth, Hg⟩
      iapply (run_A c (grid0.coords t) _ _ _ _ _ _ _ _ _ _ _ _ hc0 hc1 (iblk V c 0 t) (iblk V c 1 t) (iblk V c 2 t) _ Set.univ _)
      isplitl [H0]; · iexact H0
      isplitl [H1]; · iexact H1
      isplitl [H2]; · iexact H2
      isplitl [H3]; · iexact H3
      isplitl [HG]; · iexact HG
      isplitl [HU]; · iexact HU
      iintro ⟨H0, H1, H2, H3, HG, HU⟩
      isplitl [HG HU Hoth Hg]
      · isplitl [HG]; · iexact HG
        isplitl [HU]; · iexact HU
        isplitl [Hoth]; · iexact Hoth
        iexact Hg
      isplitl [Ho]; · iexact Ho
      isplitl [H0]; · iexact H0
      isplitl [H1]; · iexact H1
      isplitl [H2]; · iexact H2
      iexists _; iexact H3
    · rw [Phi_castSucc V c t, PhiS_pos V c _ _ hz]
      iintro ⟨⟨HG, HU, Hoth, Hg⟩, Ho, ⟨%d0, H0⟩, ⟨%d1, H1⟩, ⟨%d2, H2⟩, ⟨%d3, H3⟩⟩
      iapply (run_A c (grid0.coords t) _ _ _ _ _ _ _ _ _ _ _ _ hc0 hc1 (iblk V c 0 t) (iblk V c 1 t) (iblk V c 2 t) _ Set.univ _)
      isplitl [H0]; · iexact H0
      isplitl [H1]; · iexact H1
      isplitl [H2]; · iexact H2
      isplitl [H3]; · iexact H3
      isplitl [HG]; · iexists _; iexact HG
      isplitl [HU]; · iexists _; iexact HU
      iintro ⟨H0, H1, H2, H3, HG, HU⟩
      isplitl [HG HU Hoth Hg]
      · isplitl [HG]; · iexact HG
        isplitl [HU]; · iexact HU
        isplitl [Hoth]; · iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond0 (grid0.coords t) := fun h => h0 ((hcond0 t).mp h)
    rw [accG_step V c t h0, accU_step V c t h0, Phi_castSucc V c t, PhiS_pos V c _ _ hz]
    by_cases h1 : t.val % 4 = 3
    · have hc1 : cond1 (grid0.coords t) := (hcond1 t).mpr h1
      rw [show (dat V c).leavesExact 3 t = owns (c : Thread nD τ) (st0_3 t) fullShare ((dat V c).after 3 t) from by
        unfold Dat.leavesExact; rw [live_out _ hc1], after_3, accG_step V c t h0, accU_step V c t h0]
      iintro ⟨⟨HG, HU, Hoth, Hg⟩, Ho, ⟨%d0, H0⟩, ⟨%d1, H1⟩, ⟨%d2, H2⟩, ⟨%d3, H3⟩⟩
      iapply (run_C c (grid0.coords t) _ _ _ _ _ _ _ _ _ _ _ _ hc0 hc1 (iblk V c 0 t) (iblk V c 1 t) (iblk V c 2 t) _ _ Set.univ _)
      isplitl [H0]; · iexact H0
      isplitl [H1]; · iexact H1
      isplitl [H2]; · iexact H2
      isplitl [H3]; · iexists _; iexact H3
      isplitl [HG]; · iexact HG
      isplitl [HU]; · iexact HU
      iintro ⟨H0, H1, H2, H3, HG, HU⟩
      isplitl [HG HU Hoth Hg]
      · isplitl [HG]; · iexact HG
        isplitl [HU]; · iexact HU
        isplitl [Hoth]; · iexact Hoth
        iexact Hg
      isplitl [Ho]; · iexact Ho
      isplitl [H0]; · iexact H0
      isplitl [H1]; · iexact H1
      isplitl [H2]; · iexact H2
      iexact H3
    · have hc1 : ¬cond1 (grid0.coords t) := fun h => h1 ((hcond1 t).mp h)
      rw [Dat.leavesExact_idle (dat V c) 3 t (idle_out _ hc1) (noflush_out t h1)]
      iintro ⟨⟨HG, HU, Hoth, Hg⟩, Ho, ⟨%d0, H0⟩, ⟨%d1, H1⟩, ⟨%d2, H2⟩, ⟨%d3, H3⟩⟩
      iapply (run_B c (grid0.coords t) _ _ _ _ _ _ _ _ _ _ _ _ hc0 hc1 (iblk V c 0 t) (iblk V c 1 t) (iblk V c 2 t) _ _ _ Set.univ _)
      isplitl [H0]; · iexact H0
      isplitl [H1]; · iexact H1
      isplitl [H2]; · iexact H2
      isplitl [H3]; · iexact H3
      isplitl [HG]; · iexact HG
      isplitl [HU]; · iexact HU
      iintro ⟨H0, H1, H2, H3, HG, HU⟩
      isplitl [HG HU Hoth Hg]
      · isplitl [HG]; · iexact HG
        isplitl [HU]; · iexact HU
        isplitl [Hoth]; · iexact Hoth
        iexact Hg
      isplitl [Ho]; · iexact Ho
      isplitl [H0]; · iexact H0
      isplitl [H1]; · iexact H1
      isplitl [H2]; · iexact H2
      iexists _; iexact H3

/-- The body obligation, at every point. -/
theorem body_obligation (c : Dev nD) : BodyObligation (dat (F := F) V c) (defs₀ (F := F)) Variants.none () Set.univ := fun t => by
  rw [bigSep_W0, bigSep_W0]
  exact sound_body V c t

/-- What the region is handed is the invariant before the first point, -/
theorem Phi_first (c : Dev nD) : (dat V c).Φ 0 = Pipeline.ΦA spec0 c := rfl

/-- and after the last point the invariant gives it back, the accumulators' contents forgotten. -/
theorem Phi_last (c : Dev nD) : (dat V c).Φ (Fin.last cfg0.N) ⊢ (Pipeline.ΦA spec0 c : sProp 𝕄) := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 256 := N_0; omega)]
  iintro ⟨HG, HU, Hoth, Hg⟩
  iapply (PhiA_close (F := F) c)
  isplitl [HG]; · iexists _; iexact HG
  isplitl [HU]; · iexists _; iexact HU
  isplitl [Hoth]; · iexact Hoth
  iexact Hg

end Region

end Cert.Kernel.GateUp

end
-- ==== Proof.Frame.BitsDown.lean ====
/-
  The second kernel region, the down projection `out = gated · Wd`, as a pipeline over a 16 × 4 × 4 grid whose last
  axis walks the contracted features in four blocks of 1024. The body keeps a 512 × 1024 accumulator in scratch
  between points: at the first block of a reduction it resets it to zero, at every block it adds the product of the
  left operand's 512 × 1024 block and the weight's 1024 × 1024 block, and at the last block it stores the
  accumulator into the output window, which is written back there and only there. Stated here, at any float
  instance: what each of the three kinds of point does to the buffers, what the accumulator holds after every point
  (by recursion on the point), the invariant that carries it from point to point, and the body obligation of the
  pipeline rule.
-/
import proofs.«154968_j42142219108650_1_alg».proof.Proof.Gen.Kernel.Launch
import proofs.«154968_j42142219108650_1_alg».proof.Proof.Gen.Kernel.Skeleton
import proofs.«154968_j42142219108650_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Down

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions of the down-projection body, over the grid -/

/-- The first conditional of the body: the reduction coordinate is zero (the accumulator is reset). -/
abbrev cond0 (i : grid1.Coords) : Prop := (Scalar.cmpi .ne (Scalar.extui (Scalar.cmpi .eq (BitVec.ofNat 32 (i 2).val) 0#32)) 0#32) = 1#1
/-- The second conditional: the reduction coordinate is the last one (the accumulator is emitted). -/
abbrev cond1 (i : grid1.Coords) : Prop := k1_cond2 i = 1#1

theorem zero_S512x1024 : (![0, 0] : Fin S512x1024.rank → Nat) = fun _ => 0 := by funext a; fin_cases a <;> rfl
theorem zero_S1024x1024 : (![0, 0] : Fin S1024x1024.rank → Nat) = fun _ => 0 := by funext a; fin_cases a <;> rfl

set_option maxHeartbeats 1000000 in
/-- A point in the middle of a reduction: the accumulator `xs` gains the product of the two input blocks; the output buffer is not touched. -/
theorem run_B (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole)
    (hc0 : ¬cond0 i) (hc1 : ¬cond1 i)
    (x0 : Vec F S512x1024 .bf16) (x1 : Vec F S1024x1024 .bf16) (xi : Vec F S512x1024 .f32) (xs : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare xi ∗ owns (c : Thread nD τ) arg6 fullShare xs
        ∗ (iprop(owns (c : Thread nD τ) arg3 fullShare x0 ∗ owns (c : Thread nD τ) arg4 fullShare x1 ∗ owns (c : Thread nD τ) arg5 fullShare xi ∗ owns (c : Thread nD τ) arg6 fullShare (k1_pay2 xs x0 x1)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [View.read_writes_eq_canon _ _ _ (fun y => ⟨_, List.mem_cons.mpr (Or.inl rfl), View.mem_set_unit_zero zero_S512x1024 inb_S512x1024_S512x1024_0_0 y⟩),
    View.canon_cons_unit_zero zero_S512x1024]
  simp only [View.readAt_eq_ld, hf0, hf1, hfs, View.ld_unit_zero (S := S512x1024) zero_S512x1024, View.ld_unit_zero (S := S1024x1024) zero_S1024x1024]

set_option maxHeartbeats 1000000 in
/-- The first point of a reduction: the accumulator, whatever it held, is reset to zero and gains the product of the two input blocks. -/
theorem run_A (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole)
    (hc0 : cond0 i) (hc1 : ¬cond1 i)
    (x0 : Vec F S512x1024 .bf16) (x1 : Vec F S1024x1024 .bf16) (xi : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare xi ∗ (∃ d, owns (c : Thread nD τ) arg6 fullShare d)
        ∗ (iprop(owns (c : Thread nD τ) arg3 fullShare x0 ∗ owns (c : Thread nD τ) arg4 fullShare x1 ∗ owns (c : Thread nD τ) arg5 fullShare xi ∗ owns (c : Thread nD τ) arg6 fullShare (k1_pay2 (k1_pay1 (F := F)) x0 x1)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_cons.mpr (Or.inl rfl), View.mem_set_unit_zero zero_S512x1024 inb_S512x1024_S512x1024_0_0 y⟩),
    View.canon_cons_unit_zero zero_S512x1024]
  simp only [View.readCov_unit_zero (S := S512x1024) _ zero_S512x1024 inb_S512x1024_S512x1024_0_0, View.readAt_eq_ld, hf0, hf1, View.ld_unit_zero (S := S512x1024) zero_S512x1024, View.ld_unit_zero (S := S1024x1024) zero_S1024x1024]

set_option maxHeartbeats 1000000 in
/-- The last point of a reduction: the accumulator gains the product of the two input blocks and the output buffer, whatever it held, receives it. -/
theorem run_C (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole)
    (hc0 : ¬cond0 i) (hc1 : cond1 i)
    (x0 : Vec F S512x1024 .bf16) (x1 : Vec F S1024x1024 .bf16) (xs : Vec F S512x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k1_pay3 (k1_pay2 xs x0 x1)) ∗ owns (c : Thread nD τ) arg6 fullShare (k1_pay2 xs x0 x1)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [View.read_writes_eq_canon _ _ _ (fun y => ⟨_, List.mem_cons.mpr (Or.inl rfl), View.mem_set_unit_zero zero_S512x1024 inb_S512x1024_S512x1024_0_0 y⟩),
      View.canon_cons_unit_zero zero_S512x1024]
    simp only [View.readCov_unit_zero (S := S512x1024) _ zero_S512x1024 inb_S512x1024_S512x1024_0_0, View.readAt_eq_ld, hf0, hf1, hfs, View.ld_unit_zero (S := S512x1024) zero_S512x1024, View.ld_unit_zero (S := S1024x1024) zero_S1024x1024]
  iexists _; isplitr
  swap; · iexact HS
  ipureintro
  sl_unfold_words
  rw [View.read_writes_eq_canon _ _ _ (fun y => ⟨_, List.mem_cons.mpr (Or.inl rfl), View.mem_set_unit_zero zero_S512x1024 inb_S512x1024_S512x1024_0_0 y⟩),
    View.canon_cons_unit_zero zero_S512x1024]
  simp only [View.readCov_unit_zero (S := S512x1024) _ zero_S512x1024 inb_S512x1024_S512x1024_0_0, View.readAt_eq_ld, hf0, hf1, hfs, View.ld_unit_zero (S := S512x1024) zero_S512x1024, View.ld_unit_zero (S := S1024x1024) zero_S1024x1024]

/-! ## The region at the contents it is entered with

Everything below is stated at a parameter `V`: what every buffer of the core holds when the region is entered. -/

section Region

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point, fetched there or not. -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight block's staging buffer holds its block at every point, fetched there or not. -/
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The conditions in closed form: the reduction coordinate is the point modulo 4 -/

theorem hcond0 : ∀ t : Fin cfg1.N, cond0 (grid1.coords t) ↔ t.val % 4 = 0 :=
  (by decide +kernel : ∀ t : Fin grid1.N, cond0 (grid1.coords t) ↔ t.val % 4 = 0)
theorem hcond1 : ∀ t : Fin cfg1.N, cond1 (grid1.coords t) ↔ t.val % 4 = 3 :=
  (by decide +kernel : ∀ t : Fin grid1.N, cond1 (grid1.coords t) ↔ t.val % 4 = 3)

/-- The output window is idle wherever the accumulator is not emitted, -/
theorem idle_out (i : grid1.Coords) (h : ¬cond1 i) : cfg1.idle 2 i = true := by
  have e : (k1_cond2 i == 1#1) = false := beq_eq_false_iff_ne.mpr h
  show (!(k1_cond2 i == 1#1)) = true
  rw [e]; rfl
/-- live where it is, -/
theorem live_out (i : grid1.Coords) (h : cond1 i) : cfg1.idle 2 i = false := by
  have e : (k1_cond2 i == 1#1) = true := beq_iff_eq.mpr h
  show (!(k1_cond2 i == 1#1)) = false
  rw [e]; rfl
/-- and written back only there. -/
theorem noflush_out (t : Fin cfg1.N) (h : ¬t.val % 4 = 3) : (cfg1.win 2).flush t = false := by
  cases hf : (cfg1.win 2).flush t
  · rfl
  · exact absurd ((flush1_2 t).mp hf) h

/-! ## The accumulator, point by point -/

/-- What the accumulator holds after point `n`: at the first point of a reduction (`n ≡ 0 mod 4`) zero plus the
    product of that point's blocks, afterwards what the point before left plus the product of this point's. -/
def accAt (c : Dev nD) : (n : ℕ) → n < cfg1.N → Vec F S512x1024 .f32
  | 0, hn => k1_pay2 (k1_pay1 (F := F)) (iblk V c 0 ⟨0, hn⟩) (iblk V c 1 ⟨0, hn⟩)
  | n + 1, hn =>
    if (n + 1) % 4 = 0 then k1_pay2 (k1_pay1 (F := F)) (iblk V c 0 ⟨n + 1, hn⟩) (iblk V c 1 ⟨n + 1, hn⟩)
    else k1_pay2 (accAt c n (Nat.lt_of_succ_lt hn)) (iblk V c 0 ⟨n + 1, hn⟩) (iblk V c 1 ⟨n + 1, hn⟩)

theorem accAt_reset (c : Dev nD) (t : Fin cfg1.N) (h : t.val % 4 = 0) :
    accAt V c t.val t.isLt = k1_pay2 (k1_pay1 (F := F)) (iblk V c 0 t) (iblk V c 1 t) := by
  obtain ⟨n, hn⟩ := t
  cases n with
  | zero => rfl
  | succ n => exact if_pos h

theorem accAt_step (c : Dev nD) (t : Fin cfg1.N) (h : ¬t.val % 4 = 0) :
    accAt V c t.val t.isLt = k1_pay2 (accAt V c (t.val - 1) (Nat.lt_of_le_of_lt (Nat.sub_le _ _) t.isLt)) (iblk V c 0 t) (iblk V c 1 t) := by
  obtain ⟨n, hn⟩ := t
  cases n with
  | zero => exact absurd (Nat.zero_mod _) h
  | succ n => exact if_neg h

/-! ## The invariant -/

/-- The accumulator scratch as a memref. -/
abbrev accM : Memref sig .tc .vmem S512x1024 .f32 := Memref.whole cc1_scratch0

/-- The core's scoped buffers this region neither stages nor uses (the other region's), each at some contents. -/
def others (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))

/-- What the region is handed before its first point: the accumulator at anything, the other scoped buffers, the generator register. -/
theorem PhiA_open (c : Dev nD) :
    (Pipeline.ΦA spec1 c : sProp 𝕄) ⊢ iprop((∃ d, owns (c : Thread nD τ) accM fullShare d) ∗ others (F := F) c ∗ (∃ r, prngReg c r)) := by
  unfold Pipeline.ΦA others; rw [scopedRest1_eq]; simp only [accM, owns_whole]
  iintro ⟨⟨A0, A1, A2, A3, A4, A5, A6, A7, A8, A9, HS⟩, Hg⟩
  isplitl [HS]; · iexact HS
  isplitl [A0 A1 A2 A3 A4 A5 A6 A7 A8 A9]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  iexact Hg

/-- And the same given back. -/
theorem PhiA_close (c : Dev nD) :
    iprop((∃ d, owns (c : Thread nD τ) accM fullShare d) ∗ others (F := F) c ∗ (∃ r, prngReg c r)) ⊢ (Pipeline.ΦA spec1 c : sProp 𝕄) := by
  unfold Pipeline.ΦA others; rw [scopedRest1_eq]; simp only [accM, owns_whole]
  iintro ⟨HS, ⟨A0, A1, A2, A3, A4, A5, A6, A7, A8, A9⟩, Hg⟩
  isplitl [A0 A1 A2 A3 A4 A5 A6 A7 A8 A9 HS]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact HS
  iexact Hg

/-- The region's invariant before position `n`: before the first point what the region is handed; afterwards the
    accumulator at what the point before left in it, the other scoped buffers and the generator register. -/
def PhiS (c : Dev nD) : (n : ℕ) → n ≤ cfg1.N → sProp 𝕄
  | 0, _ => Pipeline.ΦA spec1 c
  | n + 1, hn => iprop(owns (c : Thread nD τ) accM fullShare (accAt V c n hn) ∗ others (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) accM fullShare (accAt V c n hn) ∗ others (F := F) c ∗ (∃ r, prngReg c r)) := rfl

theorem PhiS_pos (c : Dev nD) (n : ℕ) (h : n ≤ cfg1.N) (hz : n ≠ 0) :
    PhiS V c n h = iprop(owns (c : Thread nD τ) accM fullShare (accAt V c (n - 1) (by omega)) ∗ others (F := F) c ∗ (∃ r, prngReg c r)) := by
  cases n with
  | zero => exact absurd rfl hz
  | succ n => rfl

/-! ## The proof data -/

/-- The region's proof data on core `c`: the arrays as the region finds them; after the body each input's buffer
    at its block and the output's at the accumulator of that point; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay3 (accAt V c t.val t.isLt)
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = k1_pay3 (accAt V c t.val t.isLt) := by dsimp only [dat]

theorem before_0 (c : Dev nD) (t : Fin cfg1.N) (d) : (dat V c).before 0 t d = iblk V c 0 t :=
  before_in0_of V (dat V c) (A_eq V c 0) (after_0 V c) t d
theorem before_1 (c : Dev nD) (t : Fin cfg1.N) (d) : (dat V c).before 1 t d = iblk V c 1 t :=
  before_in1_of V (dat V c) (A_eq V c 1) (after_1 V c) t d

/-! ## The body obligation -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The point modulo 4 says which of the three runs applies; the invariant hands the body the
    accumulator at what the point before left (at anything at the very first point, and at a reset point its contents
    are not looked at), and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st1_0 t) fullShare ((dat V c).after 0 t) from rfl, after_0]
  rw [show (dat V c).leavesExact 1 t = owns (c : Thread nD τ) (st1_1 t) fullShare ((dat V c).after 1 t) from rfl, after_1]
  by_cases h0 : t.val % 4 = 0
  · have h1 : ¬t.val % 4 = 3 := by omega
    have hc0 : cond0 (grid1.coords t) := (hcond0 t).mpr h0
    have hc1 : ¬cond1 (grid1.coords t) := fun h => h1 ((hcond1 t).mp h)
    rw [Dat.leavesExact_idle (dat V c) 2 t (idle_out _ hc1) (noflush_out t h1)]
    rw [accAt_reset V c t h0]
    by_cases hz : t.val = 0
    · rw [Phi_castSucc V c t, PhiS_zero V c _ _ hz]
      iintro ⟨HΦ, Ho, ⟨%d0, H0⟩, ⟨%d1, H1⟩, ⟨%d2, H2⟩⟩
      ihave HΦ' := (PhiA_open (F := F) c) $$ HΦ
      icases HΦ' with ⟨HS, Hoth, Hg⟩
      iapply (run_A c (grid1.coords t) _ _ _ _ _ _ _ _ hc0 hc1 (iblk V c 0 t) (iblk V c 1 t) _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexists _; iexact H2
    · rw [Phi_castSucc V c t, PhiS_pos V c _ _ hz]
      iintro ⟨⟨HS, Hoth, Hg⟩, Ho, ⟨%d0, H0⟩, ⟨%d1, H1⟩, ⟨%d2, H2⟩⟩
      iapply (run_A c (grid1.coords t) _ _ _ _ _ _ _ _ hc0 hc1 (iblk V c 0 t) (iblk V c 1 t) _ Set.univ _)
      isplitl [H0]; · iexact H0
      isplitl [H1]; · iexact H1
      isplitl [H2]; · iexact H2
      isplitl [HS]; · iexists _; iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexists _; iexact H2
  · have hz : t.val ≠ 0 := fun e => h0 (by rw [e])
    have hc0 : ¬cond0 (grid1.coords t) := fun h => h0 ((hcond0 t).mp h)
    rw [accAt_step V c t h0, Phi_castSucc V c t, PhiS_pos V c _ _ hz]
    by_cases h1 : t.val % 4 = 3
    · have hc1 : cond1 (grid1.coords t) := (hcond1 t).mpr h1
      rw [show (dat V c).leavesExact 2 t = owns (c : Thread nD τ) (st1_2 t) fullShare ((dat V c).after 2 t) from by
        unfold Dat.leavesExact; rw [live_out _ hc1], after_2, accAt_step V c t h0]
      iintro ⟨⟨HS, Hoth, Hg⟩, Ho, ⟨%d0, H0⟩, ⟨%d1, H1⟩, ⟨%d2, H2⟩⟩
      iapply (run_C c (grid1.coords t) _ _ _ _ _ _ _ _ hc0 hc1 (iblk V c 0 t) (iblk V c 1 t) _ Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexact H2
    · have hc1 : ¬cond1 (grid1.coords t) := fun h => h1 ((hcond1 t).mp h)
      rw [Dat.leavesExact_idle (dat V c) 2 t (idle_out _ hc1) (noflush_out t h1)]
      iintro ⟨⟨HS, Hoth, Hg⟩, Ho, ⟨%d0, H0⟩, ⟨%d1, H1⟩, ⟨%d2, H2⟩⟩
      iapply (run_B c (grid1.coords t) _ _ _ _ _ _ _ _ hc0 hc1 (iblk V c 0 t) (iblk V c 1 t) _ _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexists _; iexact H2

/-- The body obligation, at every point. -/
theorem body_obligation (c : Dev nD) : BodyObligation (dat (F := F) V c) (defs₀ (F := F)) Variants.none () Set.univ := fun t => by
  rw [bigSep_W1, bigSep_W1]
  exact sound_body V c t

/-- What the region is handed is the invariant before the first point, -/
theorem Phi_first (c : Dev nD) : (dat V c).Φ 0 = Pipeline.ΦA spec1 c := rfl

/-- and after the last point the invariant gives it back, the accumulator's contents forgotten. -/
theorem Phi_last (c : Dev nD) : (dat V c).Φ (Fin.last cfg1.N) ⊢ (Pipeline.ΦA spec1 c : sProp 𝕄) := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 256 := N_1; omega)]
  iintro ⟨HS, Hoth, Hg⟩
  iapply (PhiA_close (F := F) c)
  isplitl [HS]; · iexists _; iexact HS
  isplitl [Hoth]; · iexact Hoth
  iexact Hg

end Region

end Cert.Kernel.Down

end
-- ==== Proof.Frame.BitsRun.lean ====
/-
  The whole program as a run: the host reshape and three format changes, the gate/up region, the down region and
  the final reshape, chained over the thread state "every unscoped buffer of the core at named contents". The
  contents are named boundary by boundary: the launch memory; after the first host operations; after the first
  region, where the intermediate array holds what its write-backs leave (the fold of the flushed blocks over its
  entry contents); after the second region, likewise for the result array; after the last reshape. Every weakly
  fair execution terminates there, so the final memory holds the result array at the last boundary's contents and
  every argument array as launched.
-/
import proofs.«154968_j42142219108650_1_alg».proof.Proof.Frame.BitsGateUp
import proofs.«154968_j42142219108650_1_alg».proof.Proof.Frame.BitsDown
import proofs.«154968_j42142219108650_1_alg».proof.Proof.Gen.Kernel.Regions
import Idealize.ShloMosaic.Lib.Pipeline.RegionsLoop
import Idealize.ShloMosaic.Lib.Pipeline.FrameSuffix

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the two regions' entries, and what the regions leave -/

/-- What the first region finds: the launch memory after the first host operations. -/
abbrev VA : (c : Dev nD) → (b : Ref sig .tc) → Buf (Elt F) ((c : Thread nD τ).loc b) := fun c b => Gen.V1 m c b

/-- What the first region leaves in the intermediate array: its write-backs folded over the entry contents. -/
def midArr (c : Dev nD) : Buf (Elt F) ((c : Thread nD τ).loc main_v4) := (GateUp.dat (VA m) c).arrAt 3 cfg0.N

/-- What the second region finds: the same, the intermediate array at what the first region left. -/
abbrev VB : (c : Dev nD) → (b : Ref sig .tc) → Buf (Elt F) ((c : Thread nD τ).loc b) :=
  fun c b => Function.update (Gen.V1 m c) main_v4 (midArr m c) b

/-- What the second region leaves in the result array. -/
def finArr (c : Dev nD) : Buf (Elt F) ((c : Thread nD τ).loc main_v5) := (Down.dat (VB m) c).arrAt 2 cfg1.N

/-- The two together, as the table the boundary contents are written over. -/
def outs : Gen.Outs (F := F) := fun _ r c =>
  if h4 : r = main_v4 then h4 ▸ midArr m c
  else if h5 : r = main_v5 then h5 ▸ finArr m c
  else m ((c : Thread nD τ).loc r)

theorem outs_v4 (J : ℕ) (c : Dev nD) : outs m J main_v4 c = midArr m c := by
  unfold outs; rw [dif_pos rfl]
theorem outs_v5 (J : ℕ) (c : Dev nD) : outs m J main_v5 c = finArr m c := by
  unfold outs; rw [dif_neg (by decide), dif_pos rfl]

theorem V2_eq (c : Dev nD) : Gen.V2 m (outs m) c = Function.update (Gen.V1 m c) main_v4 (midArr m c) := by
  show Function.update (Gen.V1 m c) main_v4 (outs m 2 main_v4 c) = _
  rw [outs_v4]

theorem VB_eq (c : Dev nD) (b : Ref sig .tc) : VB m c b = Gen.V2 m (outs m) c b := by
  rw [V2_eq]

/-- At the first region's exit each of its arrays holds what the pipeline leaves, -/
theorem hF0 (c : Dev nD) : ∀ w : Fin cfg0.W, (GateUp.dat (VA m) c).arrAt w cfg0.N = Gen.V2 m (outs m) c (Pipeline.arrRef spec0 w)
  | ⟨0, _⟩ => ((GateUp.dat (VA m) c).arrAt_in 0 rfl _).trans ((GateUp.A_eq (VA m) c 0).trans (Gen.V2_of m (outs m) c main_v0 (by decide)).symm)
  | ⟨1, _⟩ => ((GateUp.dat (VA m) c).arrAt_in 1 rfl _).trans ((GateUp.A_eq (VA m) c 1).trans (Gen.V2_of m (outs m) c main_v1 (by decide)).symm)
  | ⟨2, _⟩ => ((GateUp.dat (VA m) c).arrAt_in 2 rfl _).trans ((GateUp.A_eq (VA m) c 2).trans (Gen.V2_of m (outs m) c main_v2 (by decide)).symm)
  | ⟨3, _⟩ => by
    show midArr m c = Gen.V2 m (outs m) c main_v4
    rw [V2_eq, Function.update_self]
/-- and every other buffer what it held at entry. -/
theorem hrest0 (c : Dev nD) : ∀ b, b ∉ Finset.univ.image (Pipeline.arrRef spec0) → Gen.V2 m (outs m) c b = VA m c b :=
  fun b hb => Gen.V2_of m (outs m) c b fun h =>
    hb (Finset.mem_image.mpr ⟨3, Finset.mem_univ _, (List.mem_singleton.mp h).symm⟩)

/-- The same at the second region's exit. -/
theorem hF1 (c : Dev nD) : ∀ w : Fin cfg1.W, (Down.dat (VB m) c).arrAt w cfg1.N = Gen.V3 m (outs m) c (Pipeline.arrRef spec1 w)
  | ⟨0, _⟩ => ((Down.dat (VB m) c).arrAt_in 0 rfl _).trans ((Down.A_eq (VB m) c 0).trans ((VB_eq m c main_v4).trans (Gen.V3_of m (outs m) c main_v4 (by decide)).symm))
  | ⟨1, _⟩ => ((Down.dat (VB m) c).arrAt_in 1 rfl _).trans ((Down.A_eq (VB m) c 1).trans ((VB_eq m c main_v3).trans (Gen.V3_of m (outs m) c main_v3 (by decide)).symm))
  | ⟨2, _⟩ => by
    show finArr m c = Gen.V3 m (outs m) c main_v5
    show _ = Function.update (Gen.V2 m (outs m) c) main_v5 (outs m 3 main_v5 c) main_v5
    rw [outs_v5, Function.update_self]
theorem hrest1 (c : Dev nD) : ∀ b, b ∉ Finset.univ.image (Pipeline.arrRef spec1) → Gen.V3 m (outs m) c b = VB m c b :=
  fun b hb => (Gen.V3_of m (outs m) c b fun h =>
    hb (Finset.mem_image.mpr ⟨2, Finset.mem_univ _, (List.mem_singleton.mp h).symm⟩)).trans (VB_eq m c b).symm

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => GateUp.dat (VA m) c
  | ⟨1, _⟩ => fun c => Down.dat (VB m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

-- a library lemma stated over the pinned configuration unifies with the printed one only when unification may
-- unfold plain definitions in a metavariable's type
set_option backward.isDefEq.respectTransparency.types false in
/-- Region 0 over the thread state "every unscoped buffer at the boundary's contents, the generator register at some
    state, nothing owed": its arrays are split out of the unscoped buffers at entry and put back, at what the
    write-backs leave, at exit; the generator register and the scoped rest go into the invariant and come back. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (GateUp.body_obligation (VA m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ (Pipeline.ΦA spec0 c : sProp 𝕄) from GateUp.Phi_last (VA m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VA m c) ((fun m c (b : Ref sig .tc) => Gen.V2 m (outs m) c b) m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state "every unscoped buffer at the boundary's contents, the generator register at some
    state, nothing owed": its arrays are split out of the unscoped buffers at entry and put back, at what the
    write-backs leave, at exit; the generator register and the scoped rest go into the invariant and come back. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (Down.body_obligation (VB m) c).loose
  hwaits := Pipeline.hwaits_of_owed_zero _ _ _ _ L lv 1 fun _ _ => rfl
  pre c := iprop(StableHlo.held (c : Thread nD τ) (Pipeline.ucRefs τ sig) (Function.update (Gen.V1 m c) main_v4 (midArr m c)) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from Down.Phi_last (VB m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VB m c) ((fun m c (b : Ref sig .tc) => Gen.V3 m (outs m) c b) m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the end only the core owing nothing is kept of what rides along. -/
theorem hR (c : Dev nD) : (R c : sProp 𝕄) ⊢ iprop(∃ W, owes (c : Thread nD τ) (0 : CellTallies nD τ sig Unit) W) := by
  iintro ⟨-, HO⟩; iexact HO

/-! ## The run -/

-- the launch theorem's implicit arguments are found by unifying its conclusion with this one, which takes unfolding
-- plain definitions in a metavariable's type
set_option backward.isDefEq.respectTransparency.types false in
/-- From any memory with zero counters every weakly fair execution of the program terminates, nothing faulting, with
    the result array at the last boundary's contents and every argument array as launched. -/
theorem run_all : θ_run defs (onTc (τ := τ) (main (F := F))) ⟨m, fun _ => 0, ρ⟩ (fun r => ∀ c : Dev nD,
      r.2.mem ((c.tc : Thread nD τ).loc main_v6) = Gen.V4 m (outs m) c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) Gen.adm (pdats m) () cellOf_inj emb₁ defs₀ 𝒱₀ L lv m ρ main
    (Gen.segs m (outs m) 𝒱₀ L lv (fun _ => R) () (pdats m) (reg0 m) (reg1 m))
    (fun c Q => by
      rewrite [main_chain c, Seg.run_eq_chain,
        show (Gen.segs m (outs m) 𝒱₀ L lv (fun _ => R) () (pdats m) (reg0 m) (reg1 m) c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V4 m (outs m) c))
    (hch := fun c => ⟨.rfl, .rfl, sep_mono (Entails.of_eq (congrArg (StableHlo.held (c : Thread nD τ) (Pipeline.ucRefs τ sig)) (V2_eq m c))) .rfl, .rfl, sep_mono .rfl (hR c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v6) = Gen.V4 m (outs m) c main_v6
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h => h)
  -- the end: each buffer read off the last valuation
  unfold StableHlo.held
  iintro ⟨Hh, HSI⟩
  ihave Hr := (pointsTo_read_all (Pipeline.ucRefs τ sig) (fun b => ((c : Thread nD τ).1, b)) (Gen.V4 m (outs m) c) s') $$ [Hh HSI]
  · isplitl [Hh] <;> iassumption
  icases Hr with ⟨%h, HSI⟩
  imodintro
  isplitr
  · ipureintro
    exact ⟨h (Proc.devRef .tc main_v6) (Finset.mem_filter.mpr ⟨StableHlo.devRef_mem_tcRefs main_v6, by decide⟩),
      (h (Proc.devRef .tc main_arg0) (Finset.mem_filter.mpr ⟨StableHlo.devRef_mem_tcRefs main_arg0, by decide⟩)).trans (Gen.V4_main_arg0 m (outs m) c),
      (h (Proc.devRef .tc main_arg1) (Finset.mem_filter.mpr ⟨StableHlo.devRef_mem_tcRefs main_arg1, by decide⟩)).trans (Gen.V4_main_arg1 m (outs m) c),
      (h (Proc.devRef .tc main_arg2) (Finset.mem_filter.mpr ⟨StableHlo.devRef_mem_tcRefs main_arg2, by decide⟩)).trans (Gen.V4_main_arg2 m (outs m) c),
      (h (Proc.devRef .tc main_arg3) (Finset.mem_filter.mpr ⟨StableHlo.devRef_mem_tcRefs main_arg3, by decide⟩)).trans (Gen.V4_main_arg3 m (outs m) c)⟩
  · iexact HSI

/-- The frame: the program runs and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_all m ρ)

end Cert.Kernel.Whole

end
-- ==== Proof.Frame.IdealGateUp.lean ====
/-
  The first kernel region, the fused gate and up projections with the GELU gating, as a pipeline over a 16 × 4 × 4
  grid whose last axis walks the contracted features in four blocks of 1024. The body keeps two 512 × 1024
  accumulators in scratch between points: at the first block of a reduction it resets both to zero, at every block it
  adds to each the product of the activations' 512 × 1024 block with that projection's 1024 × 1024 weight block, and
  at the last block it stores the tanh-form GELU of the gate accumulator times the up accumulator into the output
  window, which is written back there and only there. Stated here, at any float instance: what each of the three
  kinds of point does to the buffers, what the accumulators hold after every point (by recursion on the point), the
  invariant that carries them from point to point, and the body obligation of the pipeline rule.
-/
import proofs.«154968_j42142219108650_1_alg».proof.Proof.Gen.KernelIdeal.Launch
import proofs.«154968_j42142219108650_1_alg».proof.Proof.Gen.KernelIdeal.Skeleton
import proofs.«154968_j42142219108650_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions of the gate/up body, over the grid -/

/-- The first conditional of the body: the reduction coordinate is zero (both accumulators are reset). -/
abbrev cond0 (i : grid0.Coords) : Prop := (Scalar.cmpi .ne (Scalar.extui (Scalar.cmpi .eq (BitVec.ofNat 32 (i 2).val) 0#32)) 0#32) = 1#1
/-- The second conditional: the reduction coordinate is the last one (the gated product is emitted). -/
abbrev cond1 (i : grid0.Coords) : Prop := k0_cond2 i = 1#1

theorem zero_S512x1024 : (![0, 0] : Fin S512x1024.rank → Nat) = fun _ => 0 := by funext a; fin_cases a <;> rfl
theorem zero_S1024x1024 : (![0, 0] : Fin S1024x1024.rank → Nat) = fun _ => 0 := by funext a; fin_cases a <;> rfl

set_option maxHeartbeats 2000000 in
/-- A point in the middle of a reduction: each accumulator gains the product of the activations' block with its
    weight block; the output buffer is not touched. -/
theorem run_B (c : Dev nD) (i : grid0.Coords) (arg3 : Memref sig .tc .vmem S512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole)
    (hc0 : ¬cond0 i) (hc1 : ¬cond1 i)
    (x0 : Vec F S512x1024 .f32) (x1 x2 : Vec F S1024x1024 .bf16) (xi : Vec F S512x1024 .bf16) (xg xu : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare xg ∗ owns (c : Thread nD τ) arg8 fullShare xu
        ∗ (iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare (k0_pay4 x0 xg x1) ∗ owns (c : Thread nD τ) arg8 fullShare (k0_pay5 x0 xu x2)) -∗ K ⟨⟩))
      ⊢ wp frame (wpE (defs₀ (F := F)) Variants.none c none) E (cc0__gateup_kernel i arg3 harg3 arg4 harg4 arg5 harg5 arg6 harg6 arg7 harg7 arg8 harg8) K := by
  simp only [cc0__gateup_kernel_eq_skeleton]; unfold cc0__gateup_kernel_skel
  unfold owns
  iintro ⟨⟨%f0, %hf0, H0⟩, ⟨%f1, %hf1, H1⟩, ⟨%f2, %hf2, H2⟩, ⟨%f3, %hf3, H3⟩, ⟨%fg, %hfg, HG⟩, ⟨%fu, %hfu, HU⟩, Hk⟩
  obtain rfl := harg3.eq_unread hf0; obtain rfl := harg4.eq_unread hf1; obtain rfl := harg5.eq_unread hf2; obtain rfl := harg6.eq_unread hf3; obtain rfl := harg7.eq_unread hfg; obtain rfl := harg8.eq_unread hfu
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [HG]
  · iexists _; isplitr
    swap; · iexact HG
    ipureintro
    sl_unfold_words
    rw [View.read_writes_eq_canon _ _ _ (fun y => ⟨_, List.mem_cons.mpr (Or.inl rfl), View.mem_set_unit_zero zero_S512x1024 inb_S512x1024_S512x1024_0_0 y⟩),
      View.canon_cons_unit_zero zero_S512x1024]
    simp only [View.readCov_unit_zero (S := S512x1024) _ zero_S512x1024 inb_S512x1024_S512x1024_0_0, View.readAt_eq_ld, hf0, hf1, hf2, hfg, hfu, View.ld_unit_zero (S := S512x1024) zero_S512x1024, View.ld_unit_zero (S := S1024x1024) zero_S1024x1024]
  iexists _; isplitr
  swap; · iexact HU
  ipureintro
  sl_unfold_words
  rw [View.read_writes_eq_canon _ _ _ (fun y => ⟨_, List.mem_cons.mpr (Or.inl rfl), View.mem_set_unit_zero zero_S512x1024 inb_S512x1024_S512x1024_0_0 y⟩),
    View.canon_cons_unit_zero zero_S512x1024]
  simp only [View.readCov_unit_zero (S := S512x1024) _ zero_S512x1024 inb_S512x1024_S512x1024_0_0, View.readAt_eq_ld, hf0, hf1, hf2, hfg, hfu, View.ld_unit_zero (S := S512x1024) zero_S512x1024, View.ld_unit_zero (S := S1024x1024) zero_S1024x1024]

set_option maxHeartbeats 2000000 in
/-- The first point of a reduction: both accumulators, whatever they held, are reset to zero and gain the product
    of the activations' block with their weight block. -/
theorem run_A (c : Dev nD) (i : grid0.Coords) (arg3 : Memref sig .tc .vmem S512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole)
    (hc0 : cond0 i) (hc1 : ¬cond1 i)
    (x0 : Vec F S512x1024 .f32) (x1 x2 : Vec F S1024x1024 .bf16) (xi : Vec F S512x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare (k0_pay4 x0 (k0_pay1 (F := F)) x1) ∗ owns (c : Thread nD τ) arg8 fullShare (k0_pay5 x0 (k0_pay2 (F := F)) x2)) -∗ K ⟨⟩))
      ⊢ wp frame (wpE (defs₀ (F := F)) Variants.none c none) E (cc0__gateup_kernel i arg3 harg3 arg4 harg4 arg5 harg5 arg6 harg6 arg7 harg7 arg8 harg8) K := by
  simp only [cc0__gateup_kernel_eq_skeleton]; unfold cc0__gateup_kernel_skel
  unfold owns
  iintro ⟨⟨%f0, %hf0, H0⟩, ⟨%f1, %hf1, H1⟩, ⟨%f2, %hf2, H2⟩, ⟨%f3, %hf3, H3⟩, ⟨%dg, %fg, -, HG⟩, ⟨%du, %fu, -, HU⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [HG]
  · iexists _; isplitr
    swap; · iexact HG
    ipureintro
    sl_unfold_words
    rw [View.read_writes_eq_canon _ _ _ (fun y => ⟨_, List.mem_cons.mpr (Or.inl rfl), View.mem_set_unit_zero zero_S512x1024 inb_S512x1024_S512x1024_0_0 y⟩),
      View.canon_cons_unit_zero zero_S512x1024]
    simp only [View.readCov_unit_zero (S := S512x1024) _ zero_S512x1024 inb_S512x1024_S512x1024_0_0, View.readAt_eq_ld, hf0, hf1, hf2, View.ld_unit_zero (S := S512x1024) zero_S512x1024, View.ld_unit_zero (S := S1024x1024) zero_S1024x1024]
  iexists _; isplitr
  swap; · iexact HU
  ipureintro
  sl_unfold_words
  rw [View.read_writes_eq_canon _ _ _ (fun y => ⟨_, List.mem_cons.mpr (Or.inl rfl), View.mem_set_unit_zero zero_S512x1024 inb_S512x1024_S512x1024_0_0 y⟩),
    View.canon_cons_unit_zero zero_S512x1024]
  simp only [View.readCov_unit_zero (S := S512x1024) _ zero_S512x1024 inb_S512x1024_S512x1024_0_0, View.readAt_eq_ld, hf0, hf1, hf2, View.ld_unit_zero (S := S512x1024) zero_S512x1024, View.ld_unit_zero (S := S1024x1024) zero_S1024x1024]

set_option maxHeartbeats 2000000 in
/-- The last point of a reduction: each accumulator gains its product, and the output buffer, whatever it held,
    receives the gated product of the two finished accumulators. -/
theorem run_C (c : Dev nD) (i : grid0.Coords) (arg3 : Memref sig .tc .vmem S512x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole)
    (hc0 : ¬cond0 i) (hc1 : cond1 i)
    (x0 : Vec F S512x1024 .f32) (x1 x2 : Vec F S1024x1024 .bf16) (xg xu : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xg ∗ owns (c : Thread nD τ) arg8 fullShare xu
        ∗ (iprop(owns (c : Thread nD τ) arg3 fullShare x0 ∗ owns (c : Thread nD τ) arg4 fullShare x1 ∗ owns (c : Thread nD τ) arg5 fullShare x2 ∗ owns (c : Thread nD τ) arg6 fullShare (k0_pay6 (k0_pay4 x0 xg x1) (k0_pay5 x0 xu x2)) ∗ owns (c : Thread nD τ) arg7 fullShare (k0_pay4 x0 xg x1) ∗ owns (c : Thread nD τ) arg8 fullShare (k0_pay5 x0 xu x2)) -∗ K ⟨⟩))
      ⊢ wp frame (wpE (defs₀ (F := F)) Variants.none c none) E (cc0__gateup_kernel i arg3 harg3 arg4 harg4 arg5 harg5 arg6 harg6 arg7 harg7 arg8 harg8) K := by
  simp only [cc0__gateup_kernel_eq_skeleton]; unfold cc0__gateup_kernel_skel
  unfold owns
  iintro ⟨⟨%f0, %hf0, H0⟩, ⟨%f1, %hf1, H1⟩, ⟨%f2, %hf2, H2⟩, ⟨%d3, %f3, -, H3⟩, ⟨%fg, %hfg, HG⟩, ⟨%fu, %hfu, HU⟩, Hk⟩
  obtain rfl := harg3.eq_unread hf0; obtain rfl := harg4.eq_unread hf1; obtain rfl := harg5.eq_unread hf2; obtain rfl := harg7.eq_unread hfg; obtain rfl := harg8.eq_unread hfu
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_words
    rw [View.read_writes_eq_canon _ _ _ (fun y => ⟨_, List.mem_cons.mpr (Or.inl rfl), View.mem_set_unit_zero zero_S512x1024 inb_S512x1024_S512x1024_0_0 y⟩),
      View.canon_cons_unit_zero zero_S512x1024]
    simp only [View.readCov_unit_zero (S := S512x1024) _ zero_S512x1024 inb_S512x1024_S512x1024_0_0, View.readAt_eq_ld, hf0, hf1, hf2, hfg, hfu, View.ld_unit_zero (S := S512x1024) zero_S512x1024, View.ld_unit_zero (S := S1024x1024) zero_S1024x1024]
  isplitl [HG]
  · iexists _; isplitr
    swap; · iexact HG
    ipureintro
    sl_unfold_words
    rw [View.read_writes_eq_canon _ _ _ (fun y => ⟨_, List.mem_cons.mpr (Or.inl rfl), View.mem_set_unit_zero zero_S512x1024 inb_S512x1024_S512x1024_0_0 y⟩),
      View.canon_cons_unit_zero zero_S512x1024]
    simp only [View.readCov_unit_zero (S := S512x1024) _ zero_S512x1024 inb_S512x1024_S512x1024_0_0, View.readAt_eq_ld, hf0, hf1, hf2, hfg, hfu, View.ld_unit_zero (S := S512x1024) zero_S512x1024, View.ld_unit_zero (S := S1024x1024) zero_S1024x1024]
  iexists _; isplitr
  swap; · iexact HU
  ipureintro
  sl_unfold_words
  rw [View.read_writes_eq_canon _ _ _ (fun y => ⟨_, List.mem_cons.mpr (Or.inl rfl), View.mem_set_unit_zero zero_S512x1024 inb_S512x1024_S512x1024_0_0 y⟩),
    View.canon_cons_unit_zero zero_S512x1024]
  simp only [View.readCov_unit_zero (S := S512x1024) _ zero_S512x1024 inb_S512x1024_S512x1024_0_0, View.readAt_eq_ld, hf0, hf1, hf2, hfg, hfu, View.ld_unit_zero (S := S512x1024) zero_S512x1024, View.ld_unit_zero (S := S1024x1024) zero_S1024x1024]

/-! ## The region at the contents it is entered with

Everything below is stated at a parameter `V`: what every buffer of the core holds when the region is entered. -/

section Region

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds its block at every point, fetched there or not. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The gate weight's staging buffer holds its block at every point, fetched there or not. -/
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The up weight's staging buffer holds its block at every point, fetched there or not. -/
theorem before_in2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The conditions in closed form: the reduction coordinate is the point modulo 4 -/

theorem hcond0 : ∀ t : Fin cfg0.N, cond0 (grid0.coords t) ↔ t.val % 4 = 0 :=
  (by decide +kernel : ∀ t : Fin grid0.N, cond0 (grid0.coords t) ↔ t.val % 4 = 0)
theorem hcond1 : ∀ t : Fin cfg0.N, cond1 (grid0.coords t) ↔ t.val % 4 = 3 :=
  (by decide +kernel : ∀ t : Fin grid0.N, cond1 (grid0.coords t) ↔ t.val % 4 = 3)

/-- The output window is idle wherever the gated product is not emitted, -/
theorem idle_out (i : grid0.Coords) (h : ¬cond1 i) : cfg0.idle 3 i = true := by
  have e : (k0_cond2 i == 1#1) = false := beq_eq_false_iff_ne.mpr h
  show (!(k0_cond2 i == 1#1)) = true
  rw [e]; rfl
/-- live where it is, -/
theorem live_out (i : grid0.Coords) (h : cond1 i) : cfg0.idle 3 i = false := by
  have e : (k0_cond2 i == 1#1) = true := beq_iff_eq.mpr h
  show (!(k0_cond2 i == 1#1)) = false
  rw [e]; rfl
/-- and written back only there. -/
theorem noflush_out (t : Fin cfg0.N) (h : ¬t.val % 4 = 3) : (cfg0.win 3).flush t = false := by
  cases hf : (cfg0.win 3).flush t
  · rfl
  · exact absurd ((flush0_3 t).mp hf) h

/-! ## The two accumulators, point by point -/

/-- What the gate accumulator holds after point `n`: at the first point of a reduction (`n ≡ 0 mod 4`) zero plus
    the product of that point's activation and gate-weight blocks, afterwards what the point before left plus this
    point's product. -/
def accG (c : Dev nD) : (n : ℕ) → n < cfg0.N → Vec F S512x1024 .f32
  | 0, hn => k0_pay4 (iblk V c 0 ⟨0, hn⟩) (k0_pay1 (F := F)) (iblk V c 1 ⟨0, hn⟩)
  | n + 1, hn =>
    if (n + 1) % 4 = 0 then k0_pay4 (iblk V c 0 ⟨n + 1, hn⟩) (k0_pay1 (F := F)) (iblk V c 1 ⟨n + 1, hn⟩)
    else k0_pay4 (iblk V c 0 ⟨n + 1, hn⟩) (accG c n (Nat.lt_of_succ_lt hn)) (iblk V c 1 ⟨n + 1, hn⟩)

/-- The same for the up accumulator, with the up-weight blocks. -/
def accU (c : Dev nD) : (n : ℕ) → n < cfg0.N → Vec F S512x1024 .f32
  | 0, hn => k0_pay5 (iblk V c 0 ⟨0, hn⟩) (k0_pay2 (F := F)) (iblk V c 2 ⟨0, hn⟩)
  | n + 1, hn =>
    if (n + 1) % 4 = 0 then k0_pay5 (iblk V c 0 ⟨n + 1, hn⟩) (k0_pay2 (F := F)) (iblk V c 2 ⟨n + 1, hn⟩)
    else k0_pay5 (iblk V c 0 ⟨n + 1, hn⟩) (accU c n (Nat.lt_of_succ_lt hn)) (iblk V c 2 ⟨n + 1, hn⟩)

theorem accG_reset (c : Dev nD) (t : Fin cfg0.N) (h : t.val % 4 = 0) :
    accG V c t.val t.isLt = k0_pay4 (iblk V c 0 t) (k0_pay1 (F := F)) (iblk V c 1 t) := by
  obtain ⟨n, hn⟩ := t
  cases n with
  | zero => rfl
  | succ n => exact if_pos h

theorem accG_step (c : Dev nD) (t : Fin cfg0.N) (h : ¬t.val % 4 = 0) :
    accG V c t.val t.isLt = k0_pay4 (iblk V c 0 t) (accG V c (t.val - 1) (Nat.lt_of_le_of_lt (Nat.sub_le _ _) t.isLt)) (iblk V c 1 t) := by
  obtain ⟨n, hn⟩ := t
  cases n with
  | zero => exact absurd (Nat.zero_mod _) h
  | succ n => exact if_neg h

theorem accU_reset (c : Dev nD) (t : Fin cfg0.N) (h : t.val % 4 = 0) :
    accU V c t.val t.isLt = k0_pay5 (iblk V c 0 t) (k0_pay2 (F := F)) (iblk V c 2 t) := by
  obtain ⟨n, hn⟩ := t
  cases n with
  | zero => rfl
  | succ n => exact if_pos h

theorem accU_step (c : Dev nD) (t : Fin cfg0.N) (h : ¬t.val % 4 = 0) :
    accU V c t.val t.isLt = k0_pay5 (iblk V c 0 t) (accU V c (t.val - 1) (Nat.lt_of_le_of_lt (Nat.sub_le _ _) t.isLt)) (iblk V c 2 t) := by
  obtain ⟨n, hn⟩ := t
  cases n with
  | zero => exact absurd (Nat.zero_mod _) h
  | succ n => exact if_neg h

/-! ## The invariant -/

/-- The two accumulator scratches as memrefs. -/
abbrev gM : Memref sig .tc .vmem S512x1024 .f32 := Memref.whole cc0_scratch0
abbrev uM : Memref sig .tc .vmem S512x1024 .f32 := Memref.whole cc0_scratch1

/-- The core's scoped buffers this region neither stages nor uses (the other region's), each at some contents. -/
def others (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_scratch0), ((c : Thread nD τ).loc cc1_scratch0) ↦{fullShare} f))

/-- What the region is handed before its first point: both accumulators at anything, the other scoped buffers, the generator register. -/
theorem PhiA_open (c : Dev nD) :
    (Pipeline.ΦA spec0 c : sProp 𝕄) ⊢ iprop((∃ d, owns (c : Thread nD τ) gM fullShare d) ∗ (∃ d, owns (c : Thread nD τ) uM fullShare d) ∗ others (F := F) c ∗ (∃ r, prngReg c r)) := by
  unfold Pipeline.ΦA others; rw [scopedRest0_eq]; simp only [gM, uM, owns_whole]
  iintro ⟨⟨HG, HU, B0, B1, B2, B3, B4, B5, B6⟩, Hg⟩
  isplitl [HG]; · iexact HG
  isplitl [HU]; · iexact HU
  isplitl [B0 B1 B2 B3 B4 B5 B6]
  · isplitl [B0]; · iexact B0
    isplitl [B1]; · iexact B1
    isplitl [B2]; · iexact B2
    isplitl [B3]; · iexact B3
    isplitl [B4]; · iexact B4
    isplitl [B5]; · iexact B5
    iexact B6
  iexact Hg

/-- And the same given back. -/
theorem PhiA_close (c : Dev nD) :
    iprop((∃ d, owns (c : Thread nD τ) gM fullShare d) ∗ (∃ d, owns (c : Thread nD τ) uM fullShare d) ∗ others (F := F) c ∗ (∃ r, prngReg c r)) ⊢ (Pipeline.ΦA spec0 c : sProp 𝕄) := by
  unfold Pipeline.ΦA others; rw [scopedRest0_eq]; simp only [gM, uM, owns_whole]
  iintro ⟨HG, HU, ⟨B0, B1, B2, B3, B4, B5, B6⟩, Hg⟩
  isplitl [HG HU B0 B1 B2 B3 B4 B5 B6]
  · isplitl [HG]; · iexact HG
    isplitl [HU]; · iexact HU
    isplitl [B0]; · iexact B0
    isplitl [B1]; · iexact B1
    isplitl [B2]; · iexact B2
    isplitl [B3]; · iexact B3
    isplitl [B4]; · iexact B4
    isplitl [B5]; · iexact B5
    iexact B6
  iexact Hg

/-- The region's invariant before position `n`: before the first point what the region is handed; afterwards each
    accumulator at what the point before left in it, the other scoped buffers and the generator register. -/
def PhiS (c : Dev nD) : (n : ℕ) → n ≤ cfg0.N → sProp 𝕄
  | 0, _ => Pipeline.ΦA spec0 c
  | n + 1, hn => iprop(owns (c : Thread nD τ) gM fullShare (accG V c n hn) ∗ owns (c : Thread nD τ) uM fullShare (accU V c n hn) ∗ others (F := F) c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) gM fullShare (accG V c n hn) ∗ owns (c : Thread nD τ) uM fullShare (accU V c n hn) ∗ others (F := F) c ∗ (∃ r, prngReg c r)) := rfl

theorem PhiS_pos (c : Dev nD) (n : ℕ) (h : n ≤ cfg0.N) (hz : n ≠ 0) :
    PhiS V c n h = iprop(owns (c : Thread nD τ) gM fullShare (accG V c (n - 1) (by omega)) ∗ owns (c : Thread nD τ) uM fullShare (accU V c (n - 1) (by omega)) ∗ others (F := F) c ∗ (∃ r, prngReg c r)) := by
  cases n with
  | zero => exact absurd rfl hz
  | succ n => rfl

/-! ## The proof data -/

/-- The region's proof data on core `c`: the arrays as the region finds them; after the body each input's buffer
    at its block and the output's at the gated product of that point's accumulators; the invariant `PhiS`; nothing
    owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay6 (accG V c t.val t.isLt) (accU V c t.val t.isLt)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = k0_pay6 (accG V c t.val t.isLt) (accU V c t.val t.isLt) := by dsimp only [dat]

theorem before_0 (c : Dev nD) (t : Fin cfg0.N) (d) : (dat V c).before 0 t d = iblk V c 0 t :=
  before_in0_of V (dat V c) (A_eq V c 0) (after_0 V c) t d
theorem before_1 (c : Dev nD) (t : Fin cfg0.N) (d) : (dat V c).before 1 t d = iblk V c 1 t :=
  before_in1_of V (dat V c) (A_eq V c 1) (after_1 V c) t d
theorem before_2 (c : Dev nD) (t : Fin cfg0.N) (d) : (dat V c).before 2 t d = iblk V c 2 t :=
  before_in2_of V (dat V c) (A_eq V c 2) (after_2 V c) t d

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The point modulo 4 says which of the three runs applies; the invariant hands the body the
    two accumulators at what the point before left (at anything at the very first point, and at a reset point their
    contents are not looked at), and takes them back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st0_0 t) fullShare ((dat V c).after 0 t) from rfl, after_0]
  rw [show (dat V c).leavesExact 1 t = owns (c : Thread nD τ) (st0_1 t) fullShare ((dat V c).after 1 t) from rfl, after_1]
  rw [show (dat V c).leavesExact 2 t = owns (c : Thread nD τ) (st0_2 t) fullShare ((dat V c).after 2 t) from rfl, after_2]
  by_cases h0 : t.val % 4 = 0
  · have h1 : ¬t.val % 4 = 3 := by omega
    have hc0 : cond0 (grid0.coords t) := (hcond0 t).mpr h0
    have hc1 : ¬cond1 (grid0.coords t) := fun h => h1 ((hcond1 t).mp h)
    rw [Dat.leavesExact_idle (dat V c) 3 t (idle_out _ hc1) (noflush_out t h1)]
    rw [accG_reset V c t h0, accU_reset V c t h0]
    by_cases hz : t.val = 0
    · rw [Phi_castSucc V c t, PhiS_zero V c _ _ hz]
      iintro ⟨HΦ, Ho, ⟨%d0, H0⟩, ⟨%d1, H1⟩, ⟨%d2, H2⟩, ⟨%d3, H3⟩⟩
      ihave HΦ' := (PhiA_open (F := F) c) $$ HΦ
      icases HΦ' with ⟨HG, HU, Hoth, Hg⟩
      iapply (run_A c (grid0.coords t) _ _ _ _ _ _ _ _ _ _ _ _ hc0 hc1 (iblk V c 0 t) (iblk V c 1 t) (iblk V c 2 t) _ Set.univ _)
      isplitl [H0]; · iexact H0
      isplitl [H1]; · iexact H1
      isplitl [H2]; · iexact H2
      isplitl [H3]; · iexact H3
      isplitl [HG]; · iexact HG
      isplitl [HU]; · iexact HU
      iintro ⟨H0, H1, H2, H3, HG, HU⟩
      isplitl [HG HU Hoth Hg]
      · isplitl [HG]; · iexact HG
        isplitl [HU]; · iexact HU
        isplitl [Hoth]; · iexact Hoth
        iexact Hg
      isplitl [Ho]; · iexact Ho
      isplitl [H0]; · iexact H0
      isplitl [H1]; · iexact H1
      isplitl [H2]; · iexact H2
      iexists _; iexact H3
    · rw [Phi_castSucc V c t, PhiS_pos V c _ _ hz]
      iintro ⟨⟨HG, HU, Hoth, Hg⟩, Ho, ⟨%d0, H0⟩, ⟨%d1, H1⟩, ⟨%d2, H2⟩, ⟨%d3, H3⟩⟩
      iapply (run_A c (grid0.coords t) _ _ _ _ _ _ _ _ _ _ _ _ hc0 hc1 (iblk V c 0 t) (iblk V c 1 t) (iblk V c 2 t) _ Set.univ _)
      isplitl [H0]; · iexact H0
      isplitl [H1]; · iexact H1
      isplitl [H2]; · iexact H2
      isplitl [H3]; · iexact H3
      isplitl [HG]; · iexists _; iexact HG
      isplitl [HU]; · iexists _; iexact HU
      iintro ⟨H0, H1, H2, H3, HG, HU⟩
      isplitl [HG HU Hoth Hg]
      · isplitl [HG]; · iexact HG
        isplitl [HU]; · iexact HU
        isplitl [Hoth]; · iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond0 (grid0.coords t) := fun h => h0 ((hcond0 t).mp h)
    rw [accG_step V c t h0, accU_step V c t h0, Phi_castSucc V c t, PhiS_pos V c _ _ hz]
    by_cases h1 : t.val % 4 = 3
    · have hc1 : cond1 (grid0.coords t) := (hcond1 t).mpr h1
      rw [show (dat V c).leavesExact 3 t = owns (c : Thread nD τ) (st0_3 t) fullShare ((dat V c).after 3 t) from by
        unfold Dat.leavesExact; rw [live_out _ hc1], after_3, accG_step V c t h0, accU_step V c t h0]
      iintro ⟨⟨HG, HU, Hoth, Hg⟩, Ho, ⟨%d0, H0⟩, ⟨%d1, H1⟩, ⟨%d2, H2⟩, ⟨%d3, H3⟩⟩
      iapply (run_C c (grid0.coords t) _ _ _ _ _ _ _ _ _ _ _ _ hc0 hc1 (iblk V c 0 t) (iblk V c 1 t) (iblk V c 2 t) _ _ Set.univ _)
      isplitl [H0]; · iexact H0
      isplitl [H1]; · iexact H1
      isplitl [H2]; · iexact H2
      isplitl [H3]; · iexists _; iexact H3
      isplitl [HG]; · iexact HG
      isplitl [HU]; · iexact HU
      iintro ⟨H0, H1, H2, H3, HG, HU⟩
      isplitl [HG HU Hoth Hg]
      · isplitl [HG]; · iexact HG
        isplitl [HU]; · iexact HU
        isplitl [Hoth]; · iexact Hoth
        iexact Hg
      isplitl [Ho]; · iexact Ho
      isplitl [H0]; · iexact H0
      isplitl [H1]; · iexact H1
      isplitl [H2]; · iexact H2
      iexact H3
    · have hc1 : ¬cond1 (grid0.coords t) := fun h => h1 ((hcond1 t).mp h)
      rw [Dat.leavesExact_idle (dat V c) 3 t (idle_out _ hc1) (noflush_out t h1)]
      iintro ⟨⟨HG, HU, Hoth, Hg⟩, Ho, ⟨%d0, H0⟩, ⟨%d1, H1⟩, ⟨%d2, H2⟩, ⟨%d3, H3⟩⟩
      iapply (run_B c (grid0.coords t) _ _ _ _ _ _ _ _ _ _ _ _ hc0 hc1 (iblk V c 0 t) (iblk V c 1 t) (iblk V c 2 t) _ _ _ Set.univ _)
      isplitl [H0]; · iexact H0
      isplitl [H1]; · iexact H1
      isplitl [H2]; · iexact H2
      isplitl [H3]; · iexact H3
      isplitl [HG]; · iexact HG
      isplitl [HU]; · iexact HU
      iintro ⟨H0, H1, H2, H3, HG, HU⟩
      isplitl [HG HU Hoth Hg]
      · isplitl [HG]; · iexact HG
        isplitl [HU]; · iexact HU
        isplitl [Hoth]; · iexact Hoth
        iexact Hg
      isplitl [Ho]; · iexact Ho
      isplitl [H0]; · iexact H0
      isplitl [H1]; · iexact H1
      isplitl [H2]; · iexact H2
      iexists _; iexact H3

/-- The body obligation, at every point. -/
theorem body_obligation (c : Dev nD) : BodyObligation (dat (F := F) V c) (defs₀ (F := F)) Variants.none () Set.univ := fun t => by
  rw [bigSep_W0, bigSep_W0]
  exact sound_body V c t

/-- What the region is handed is the invariant before the first point, -/
theorem Phi_first (c : Dev nD) : (dat V c).Φ 0 = Pipeline.ΦA spec0 c := rfl

/-- and after the last point the invariant gives it back, the accumulators' contents forgotten. -/
theorem Phi_last (c : Dev nD) : (dat V c).Φ (Fin.last cfg0.N) ⊢ (Pipeline.ΦA spec0 c : sProp 𝕄) := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 256 := N_0; omega)]
  iintro ⟨HG, HU, Hoth, Hg⟩
  iapply (PhiA_close (F := F) c)
  isplitl [HG]; · iexists _; iexact HG
  isplitl [HU]; · iexists _; iexact HU
  isplitl [Hoth]; · iexact Hoth
  iexact Hg

end Region

end Cert.KernelIdeal.GateUp

end
-- ==== Proof.Frame.IdealDown.lean ====
/-
  The second kernel region, the down projection `out = gated · Wd`, as a pipeline over a 16 × 4 × 4 grid whose last
  axis walks the contracted features in four blocks of 1024. The body keeps a 512 × 1024 accumulator in scratch
  between points: at the first block of a reduction it resets it to zero, at every block it adds the product of the
  left operand's 512 × 1024 block and the weight's 1024 × 1024 block, and at the last block it stores the
  accumulator into the output window, which is written back there and only there. Stated here, at any float
  instance: what each of the three kinds of point does to the buffers, what the accumulator holds after every point
  (by recursion on the point), the invariant that carries it from point to point, and the body obligation of the
  pipeline rule.
-/
import proofs.«154968_j42142219108650_1_alg».proof.Proof.Gen.KernelIdeal.Launch
import proofs.«154968_j42142219108650_1_alg».proof.Proof.Gen.KernelIdeal.Skeleton
import proofs.«154968_j42142219108650_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions of the down-projection body, over the grid -/

/-- The first conditional of the body: the reduction coordinate is zero (the accumulator is reset). -/
abbrev cond0 (i : grid1.Coords) : Prop := (Scalar.cmpi .ne (Scalar.extui (Scalar.cmpi .eq (BitVec.ofNat 32 (i 2).val) 0#32)) 0#32) = 1#1
/-- The second conditional: the reduction coordinate is the last one (the accumulator is emitted). -/
abbrev cond1 (i : grid1.Coords) : Prop := k1_cond2 i = 1#1

theorem zero_S512x1024 : (![0, 0] : Fin S512x1024.rank → Nat) = fun _ => 0 := by funext a; fin_cases a <;> rfl
theorem zero_S1024x1024 : (![0, 0] : Fin S1024x1024.rank → Nat) = fun _ => 0 := by funext a; fin_cases a <;> rfl

set_option maxHeartbeats 1000000 in
/-- A point in the middle of a reduction: the accumulator `xs` gains the product of the two input blocks; the output buffer is not touched. -/
theorem run_B (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole)
    (hc0 : ¬cond0 i) (hc1 : ¬cond1 i)
    (x0 : Vec F S512x1024 .bf16) (x1 : Vec F S1024x1024 .bf16) (xi : Vec F S512x1024 .f32) (xs : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare xi ∗ owns (c : Thread nD τ) arg6 fullShare xs
        ∗ (iprop(owns (c : Thread nD τ) arg3 fullShare x0 ∗ owns (c : Thread nD τ) arg4 fullShare x1 ∗ owns (c : Thread nD τ) arg5 fullShare xi ∗ owns (c : Thread nD τ) arg6 fullShare (k1_pay2 xs x0 x1)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [View.read_writes_eq_canon _ _ _ (fun y => ⟨_, List.mem_cons.mpr (Or.inl rfl), View.mem_set_unit_zero zero_S512x1024 inb_S512x1024_S512x1024_0_0 y⟩),
    View.canon_cons_unit_zero zero_S512x1024]
  simp only [View.readAt_eq_ld, hf0, hf1, hfs, View.ld_unit_zero (S := S512x1024) zero_S512x1024, View.ld_unit_zero (S := S1024x1024) zero_S1024x1024]

set_option maxHeartbeats 1000000 in
/-- The first point of a reduction: the accumulator, whatever it held, is reset to zero and gains the product of the two input blocks. -/
theorem run_A (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole)
    (hc0 : cond0 i) (hc1 : ¬cond1 i)
    (x0 : Vec F S512x1024 .bf16) (x1 : Vec F S1024x1024 .bf16) (xi : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare xi ∗ (∃ d, owns (c : Thread nD τ) arg6 fullShare d)
        ∗ (iprop(owns (c : Thread nD τ) arg3 fullShare x0 ∗ owns (c : Thread nD τ) arg4 fullShare x1 ∗ owns (c : Thread nD τ) arg5 fullShare xi ∗ owns (c : Thread nD τ) arg6 fullShare (k1_pay2 (k1_pay1 (F := F)) x0 x1)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_cons.mpr (Or.inl rfl), View.mem_set_unit_zero zero_S512x1024 inb_S512x1024_S512x1024_0_0 y⟩),
    View.canon_cons_unit_zero zero_S512x1024]
  simp only [View.readCov_unit_zero (S := S512x1024) _ zero_S512x1024 inb_S512x1024_S512x1024_0_0, View.readAt_eq_ld, hf0, hf1, View.ld_unit_zero (S := S512x1024) zero_S512x1024, View.ld_unit_zero (S := S1024x1024) zero_S1024x1024]

set_option maxHeartbeats 1000000 in
/-- The last point of a reduction: the accumulator gains the product of the two input blocks and the output buffer, whatever it held, receives it. -/
theorem run_C (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .f32) (harg6 : arg6.IsWhole)
    (hc0 : ¬cond0 i) (hc1 : cond1 i)
    (x0 : Vec F S512x1024 .bf16) (x1 : Vec F S1024x1024 .bf16) (xs : Vec F S512x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k1_pay3 (k1_pay2 xs x0 x1)) ∗ owns (c : Thread nD τ) arg6 fullShare (k1_pay2 xs x0 x1)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [View.read_writes_eq_canon _ _ _ (fun y => ⟨_, List.mem_cons.mpr (Or.inl rfl), View.mem_set_unit_zero zero_S512x1024 inb_S512x1024_S512x1024_0_0 y⟩),
      View.canon_cons_unit_zero zero_S512x1024]
    simp only [View.readCov_unit_zero (S := S512x1024) _ zero_S512x1024 inb_S512x1024_S512x1024_0_0, View.readAt_eq_ld, hf0, hf1, hfs, View.ld_unit_zero (S := S512x1024) zero_S512x1024, View.ld_unit_zero (S := S1024x1024) zero_S1024x1024]
  iexists _; isplitr
  swap; · iexact HS
  ipureintro
  sl_unfold_words
  rw [View.read_writes_eq_canon _ _ _ (fun y => ⟨_, List.mem_cons.mpr (Or.inl rfl), View.mem_set_unit_zero zero_S512x1024 inb_S512x1024_S512x1024_0_0 y⟩),
    View.canon_cons_unit_zero zero_S512x1024]
  simp only [View.readCov_unit_zero (S := S512x1024) _ zero_S512x1024 inb_S512x1024_S512x1024_0_0, View.readAt_eq_ld, hf0, hf1, hfs, View.ld_unit_zero (S := S512x1024) zero_S512x1024, View.ld_unit_zero (S := S1024x1024) zero_S1024x1024]

/-! ## The region at the contents it is entered with

Everything below is stated at a parameter `V`: what every buffer of the core holds when the region is entered. -/

section Region

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point, fetched there or not. -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight block's staging buffer holds its block at every point, fetched there or not. -/
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The conditions in closed form: the reduction coordinate is the point modulo 4 -/

theorem hcond0 : ∀ t : Fin cfg1.N, cond0 (grid1.coords t) ↔ t.val % 4 = 0 :=
  (by decide +kernel : ∀ t : Fin grid1.N, cond0 (grid1.coords t) ↔ t.val % 4 = 0)
theorem hcond1 : ∀ t : Fin cfg1.N, cond1 (grid1.coords t) ↔ t.val % 4 = 3 :=
  (by decide +kernel : ∀ t : Fin grid1.N, cond1 (grid1.coords t) ↔ t.val % 4 = 3)

/-- The output window is idle wherever the accumulator is not emitted, -/
theorem idle_out (i : grid1.Coords) (h : ¬cond1 i) : cfg1.idle 2 i = true := by
  have e : (k1_cond2 i == 1#1) = false := beq_eq_false_iff_ne.mpr h
  show (!(k1_cond2 i == 1#1)) = true
  rw [e]; rfl
/-- live where it is, -/
theorem live_out (i : grid1.Coords) (h : cond1 i) : cfg1.idle 2 i = false := by
  have e : (k1_cond2 i == 1#1) = true := beq_iff_eq.mpr h
  show (!(k1_cond2 i == 1#1)) = false
  rw [e]; rfl
/-- and written back only there. -/
theorem noflush_out (t : Fin cfg1.N) (h : ¬t.val % 4 = 3) : (cfg1.win 2).flush t = false := by
  cases hf : (cfg1.win 2).flush t
  · rfl
  · exact absurd ((flush1_2 t).mp hf) h

/-! ## The accumulator, point by point -/

/-- What the accumulator holds after point `n`: at the first point of a reduction (`n ≡ 0 mod 4`) zero plus the
    product of that point's blocks, afterwards what the point before left plus the product of this point's. -/
def accAt (c : Dev nD) : (n : ℕ) → n < cfg1.N → Vec F S512x1024 .f32
  | 0, hn => k1_pay2 (k1_pay1 (F := F)) (iblk V c 0 ⟨0, hn⟩) (iblk V c 1 ⟨0, hn⟩)
  | n + 1, hn =>
    if (n + 1) % 4 = 0 then k1_pay2 (k1_pay1 (F := F)) (iblk V c 0 ⟨n + 1, hn⟩) (iblk V c 1 ⟨n + 1, hn⟩)
    else k1_pay2 (accAt c n (Nat.lt_of_succ_lt hn)) (iblk V c 0 ⟨n + 1, hn⟩) (iblk V c 1 ⟨n + 1, hn⟩)

theorem accAt_reset (c : Dev nD) (t : Fin cfg1.N) (h : t.val % 4 = 0) :
    accAt V c t.val t.isLt = k1_pay2 (k1_pay1 (F := F)) (iblk V c 0 t) (iblk V c 1 t) := by
  obtain ⟨n, hn⟩ := t
  cases n with
  | zero => rfl
  | succ n => exact if_pos h

theorem accAt_step (c : Dev nD) (t : Fin cfg1.N) (h : ¬t.val % 4 = 0) :
    accAt V c t.val t.isLt = k1_pay2 (accAt V c (t.val - 1) (Nat.lt_of_le_of_lt (Nat.sub_le _ _) t.isLt)) (iblk V c 0 t) (iblk V c 1 t) := by
  obtain ⟨n, hn⟩ := t
  cases n with
  | zero => exact absurd (Nat.zero_mod _) h
  | succ n => exact if_neg h

/-! ## The invariant -/

/-- The accumulator scratch as a memref. -/
abbrev accM : Memref sig .tc .vmem S512x1024 .f32 := Memref.whole cc1_scratch0

/-- The core's scoped buffers this region neither stages nor uses (the other region's), each at some contents. -/
def others (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))

/-- What the region is handed before its first point: the accumulator at anything, the other scoped buffers, the generator register. -/
theorem PhiA_open (c : Dev nD) :
    (Pipeline.ΦA spec1 c : sProp 𝕄) ⊢ iprop((∃ d, owns (c : Thread nD τ) accM fullShare d) ∗ others (F := F) c ∗ (∃ r, prngReg c r)) := by
  unfold Pipeline.ΦA others; rw [scopedRest1_eq]; simp only [accM, owns_whole]
  iintro ⟨⟨A0, A1, A2, A3, A4, A5, A6, A7, A8, A9, HS⟩, Hg⟩
  isplitl [HS]; · iexact HS
  isplitl [A0 A1 A2 A3 A4 A5 A6 A7 A8 A9]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  iexact Hg

/-- And the same given back. -/
theorem PhiA_close (c : Dev nD) :
    iprop((∃ d, owns (c : Thread nD τ) accM fullShare d) ∗ others (F := F) c ∗ (∃ r, prngReg c r)) ⊢ (Pipeline.ΦA spec1 c : sProp 𝕄) := by
  unfold Pipeline.ΦA others; rw [scopedRest1_eq]; simp only [accM, owns_whole]
  iintro ⟨HS, ⟨A0, A1, A2, A3, A4, A5, A6, A7, A8, A9⟩, Hg⟩
  isplitl [A0 A1 A2 A3 A4 A5 A6 A7 A8 A9 HS]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact HS
  iexact Hg

/-- The region's invariant before position `n`: before the first point what the region is handed; afterwards the
    accumulator at what the point before left in it, the other scoped buffers and the generator register. -/
def PhiS (c : Dev nD) : (n : ℕ) → n ≤ cfg1.N → sProp 𝕄
  | 0, _ => Pipeline.ΦA spec1 c
  | n + 1, hn => iprop(owns (c : Thread nD τ) accM fullShare (accAt V c n hn) ∗ others (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) accM fullShare (accAt V c n hn) ∗ others (F := F) c ∗ (∃ r, prngReg c r)) := rfl

theorem PhiS_pos (c : Dev nD) (n : ℕ) (h : n ≤ cfg1.N) (hz : n ≠ 0) :
    PhiS V c n h = iprop(owns (c : Thread nD τ) accM fullShare (accAt V c (n - 1) (by omega)) ∗ others (F := F) c ∗ (∃ r, prngReg c r)) := by
  cases n with
  | zero => exact absurd rfl hz
  | succ n => rfl

/-! ## The proof data -/

/-- The region's proof data on core `c`: the arrays as the region finds them; after the body each input's buffer
    at its block and the output's at the accumulator of that point; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay3 (accAt V c t.val t.isLt)
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = k1_pay3 (accAt V c t.val t.isLt) := by dsimp only [dat]

theorem before_0 (c : Dev nD) (t : Fin cfg1.N) (d) : (dat V c).before 0 t d = iblk V c 0 t :=
  before_in0_of V (dat V c) (A_eq V c 0) (after_0 V c) t d
theorem before_1 (c : Dev nD) (t : Fin cfg1.N) (d) : (dat V c).before 1 t d = iblk V c 1 t :=
  before_in1_of V (dat V c) (A_eq V c 1) (after_1 V c) t d

/-! ## The body obligation -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The point modulo 4 says which of the three runs applies; the invariant hands the body the
    accumulator at what the point before left (at anything at the very first point, and at a reset point its contents
    are not looked at), and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st1_0 t) fullShare ((dat V c).after 0 t) from rfl, after_0]
  rw [show (dat V c).leavesExact 1 t = owns (c : Thread nD τ) (st1_1 t) fullShare ((dat V c).after 1 t) from rfl, after_1]
  by_cases h0 : t.val % 4 = 0
  · have h1 : ¬t.val % 4 = 3 := by omega
    have hc0 : cond0 (grid1.coords t) := (hcond0 t).mpr h0
    have hc1 : ¬cond1 (grid1.coords t) := fun h => h1 ((hcond1 t).mp h)
    rw [Dat.leavesExact_idle (dat V c) 2 t (idle_out _ hc1) (noflush_out t h1)]
    rw [accAt_reset V c t h0]
    by_cases hz : t.val = 0
    · rw [Phi_castSucc V c t, PhiS_zero V c _ _ hz]
      iintro ⟨HΦ, Ho, ⟨%d0, H0⟩, ⟨%d1, H1⟩, ⟨%d2, H2⟩⟩
      ihave HΦ' := (PhiA_open (F := F) c) $$ HΦ
      icases HΦ' with ⟨HS, Hoth, Hg⟩
      iapply (run_A c (grid1.coords t) _ _ _ _ _ _ _ _ hc0 hc1 (iblk V c 0 t) (iblk V c 1 t) _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexists _; iexact H2
    · rw [Phi_castSucc V c t, PhiS_pos V c _ _ hz]
      iintro ⟨⟨HS, Hoth, Hg⟩, Ho, ⟨%d0, H0⟩, ⟨%d1, H1⟩, ⟨%d2, H2⟩⟩
      iapply (run_A c (grid1.coords t) _ _ _ _ _ _ _ _ hc0 hc1 (iblk V c 0 t) (iblk V c 1 t) _ Set.univ _)
      isplitl [H0]; · iexact H0
      isplitl [H1]; · iexact H1
      isplitl [H2]; · iexact H2
      isplitl [HS]; · iexists _; iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexists _; iexact H2
  · have hz : t.val ≠ 0 := fun e => h0 (by rw [e])
    have hc0 : ¬cond0 (grid1.coords t) := fun h => h0 ((hcond0 t).mp h)
    rw [accAt_step V c t h0, Phi_castSucc V c t, PhiS_pos V c _ _ hz]
    by_cases h1 : t.val % 4 = 3
    · have hc1 : cond1 (grid1.coords t) := (hcond1 t).mpr h1
      rw [show (dat V c).leavesExact 2 t = owns (c : Thread nD τ) (st1_2 t) fullShare ((dat V c).after 2 t) from by
        unfold Dat.leavesExact; rw [live_out _ hc1], after_2, accAt_step V c t h0]
      iintro ⟨⟨HS, Hoth, Hg⟩, Ho, ⟨%d0, H0⟩, ⟨%d1, H1⟩, ⟨%d2, H2⟩⟩
      iapply (run_C c (grid1.coords t) _ _ _ _ _ _ _ _ hc0 hc1 (iblk V c 0 t) (iblk V c 1 t) _ Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexact H2
    · have hc1 : ¬cond1 (grid1.coords t) := fun h => h1 ((hcond1 t).mp h)
      rw [Dat.leavesExact_idle (dat V c) 2 t (idle_out _ hc1) (noflush_out t h1)]
      iintro ⟨⟨HS, Hoth, Hg⟩, Ho, ⟨%d0, H0⟩, ⟨%d1, H1⟩, ⟨%d2, H2⟩⟩
      iapply (run_B c (grid1.coords t) _ _ _ _ _ _ _ _ hc0 hc1 (iblk V c 0 t) (iblk V c 1 t) _ _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexists _; iexact H2

/-- The body obligation, at every point. -/
theorem body_obligation (c : Dev nD) : BodyObligation (dat (F := F) V c) (defs₀ (F := F)) Variants.none () Set.univ := fun t => by
  rw [bigSep_W1, bigSep_W1]
  exact sound_body V c t

/-- What the region is handed is the invariant before the first point, -/
theorem Phi_first (c : Dev nD) : (dat V c).Φ 0 = Pipeline.ΦA spec1 c := rfl

/-- and after the last point the invariant gives it back, the accumulator's contents forgotten. -/
theorem Phi_last (c : Dev nD) : (dat V c).Φ (Fin.last cfg1.N) ⊢ (Pipeline.ΦA spec1 c : sProp 𝕄) := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 256 := N_1; omega)]
  iintro ⟨HS, Hoth, Hg⟩
  iapply (PhiA_close (F := F) c)
  isplitl [HS]; · iexists _; iexact HS
  isplitl [Hoth]; · iexact Hoth
  iexact Hg

end Region

end Cert.KernelIdeal.Down

end
-- ==== Proof.Frame.IdealRun.lean ====
/-
  The whole program as a run: the host reshape and three format changes, the gate/up region, the down region and
  the final reshape, chained over the thread state "every unscoped buffer of the core at named contents". The
  contents are named boundary by boundary: the launch memory; after the first host operations; after the first
  region, where the intermediate array holds what its write-backs leave (the fold of the flushed blocks over its
  entry contents); after the second region, likewise for the result array; after the last reshape. Every weakly
  fair execution terminates there, so the final memory holds the result array at the last boundary's contents and
  every argument array as launched.
-/
import proofs.«154968_j42142219108650_1_alg».proof.Proof.Frame.IdealGateUp
import proofs.«154968_j42142219108650_1_alg».proof.Proof.Frame.IdealDown
import proofs.«154968_j42142219108650_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the two regions' entries, and what the regions leave -/

/-- What the first region finds: the launch memory after the first host operations. -/
abbrev VA : (c : Dev nD) → (b : Ref sig .tc) → Buf (Elt F) ((c : Thread nD τ).loc b) := fun c b => Gen.V1 m c b

/-- What the first region leaves in the intermediate array: its write-backs folded over the entry contents. -/
def midArr (c : Dev nD) : Buf (Elt F) ((c : Thread nD τ).loc main_v4) := (GateUp.dat (VA m) c).arrAt 3 cfg0.N

/-- What the second region finds: the same, the intermediate array at what the first region left. -/
abbrev VB : (c : Dev nD) → (b : Ref sig .tc) → Buf (Elt F) ((c : Thread nD τ).loc b) :=
  fun c b => Function.update (Gen.V1 m c) main_v4 (midArr m c) b

/-- What the second region leaves in the result array. -/
def finArr (c : Dev nD) : Buf (Elt F) ((c : Thread nD τ).loc main_v5) := (Down.dat (VB m) c).arrAt 2 cfg1.N

/-- The two together, as the table the boundary contents are written over. -/
def outs : Gen.Outs (F := F) := fun _ r c =>
  if h4 : r = main_v4 then h4 ▸ midArr m c
  else if h5 : r = main_v5 then h5 ▸ finArr m c
  else m ((c : Thread nD τ).loc r)

theorem outs_v4 (J : ℕ) (c : Dev nD) : outs m J main_v4 c = midArr m c := by
  unfold outs; rw [dif_pos rfl]
theorem outs_v5 (J : ℕ) (c : Dev nD) : outs m J main_v5 c = finArr m c := by
  unfold outs; rw [dif_neg (by decide), dif_pos rfl]

theorem V2_eq (c : Dev nD) : Gen.V2 m (outs m) c = Function.update (Gen.V1 m c) main_v4 (midArr m c) := by
  show Function.update (Gen.V1 m c) main_v4 (outs m 2 main_v4 c) = _
  rw [outs_v4]

theorem VB_eq (c : Dev nD) (b : Ref sig .tc) : VB m c b = Gen.V2 m (outs m) c b := by
  rw [V2_eq]

/-- At the first region's exit each of its arrays holds what the pipeline leaves, -/
theorem hF0 (c : Dev nD) : ∀ w : Fin cfg0.W, (GateUp.dat (VA m) c).arrAt w cfg0.N = Gen.V2 m (outs m) c (Pipeline.arrRef spec0 w)
  | ⟨0, _⟩ => ((GateUp.dat (VA m) c).arrAt_in 0 rfl _).trans ((GateUp.A_eq (VA m) c 0).trans (Gen.V2_of m (outs m) c main_v0 (by decide)).symm)
  | ⟨1, _⟩ => ((GateUp.dat (VA m) c).arrAt_in 1 rfl _).trans ((GateUp.A_eq (VA m) c 1).trans (Gen.V2_of m (outs m) c main_v1 (by decide)).symm)
  | ⟨2, _⟩ => ((GateUp.dat (VA m) c).arrAt_in 2 rfl _).trans ((GateUp.A_eq (VA m) c 2).trans (Gen.V2_of m (outs m) c main_v2 (by decide)).symm)
  | ⟨3, _⟩ => by
    show midArr m c = Gen.V2 m (outs m) c main_v4
    rw [V2_eq, Function.update_self]
/-- and every other buffer what it held at entry. -/
theorem hrest0 (c : Dev nD) : ∀ b, b ∉ Finset.univ.image (Pipeline.arrRef spec0) → Gen.V2 m (outs m) c b = VA m c b :=
  fun b hb => Gen.V2_of m (outs m) c b fun h =>
    hb (Finset.mem_image.mpr ⟨3, Finset.mem_univ _, (List.mem_singleton.mp h).symm⟩)

/-- The same at the second region's exit. -/
theorem hF1 (c : Dev nD) : ∀ w : Fin cfg1.W, (Down.dat (VB m) c).arrAt w cfg1.N = Gen.V3 m (outs m) c (Pipeline.arrRef spec1 w)
  | ⟨0, _⟩ => ((Down.dat (VB m) c).arrAt_in 0 rfl _).trans ((Down.A_eq (VB m) c 0).trans ((VB_eq m c main_v4).trans (Gen.V3_of m (outs m) c main_v4 (by decide)).symm))
  | ⟨1, _⟩ => ((Down.dat (VB m) c).arrAt_in 1 rfl _).trans ((Down.A_eq (VB m) c 1).trans ((VB_eq m c main_v3).trans (Gen.V3_of m (outs m) c main_v3 (by decide)).symm))
  | ⟨2, _⟩ => by
    show finArr m c = Gen.V3 m (outs m) c main_v5
    show _ = Function.update (Gen.V2 m (outs m) c) main_v5 (outs m 3 main_v5 c) main_v5
    rw [outs_v5, Function.update_self]
theorem hrest1 (c : Dev nD) : ∀ b, b ∉ Finset.univ.image (Pipeline.arrRef spec1) → Gen.V3 m (outs m) c b = VB m c b :=
  fun b hb => (Gen.V3_of m (outs m) c b fun h =>
    hb (Finset.mem_image.mpr ⟨2, Finset.mem_univ _, (List.mem_singleton.mp h).symm⟩)).trans (VB_eq m c b).symm

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => GateUp.dat (VA m) c
  | ⟨1, _⟩ => fun c => Down.dat (VB m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

-- a library lemma stated over the pinned configuration unifies with the printed one only when unification may
-- unfold plain definitions in a metavariable's type
set_option backward.isDefEq.respectTransparency.types false in
/-- Region 0 over the thread state "every unscoped buffer at the boundary's contents, the generator register at some
    state, nothing owed": its arrays are split out of the unscoped buffers at entry and put back, at what the
    write-backs leave, at exit; the generator register and the scoped rest go into the invariant and come back. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (GateUp.body_obligation (VA m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ (Pipeline.ΦA spec0 c : sProp 𝕄) from GateUp.Phi_last (VA m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VA m c) ((fun m c (b : Ref sig .tc) => Gen.V2 m (outs m) c b) m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state "every unscoped buffer at the boundary's contents, the generator register at some
    state, nothing owed": its arrays are split out of the unscoped buffers at entry and put back, at what the
    write-backs leave, at exit; the generator register and the scoped rest go into the invariant and come back. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (Down.body_obligation (VB m) c).loose
  hwaits := Pipeline.hwaits_of_owed_zero _ _ _ _ L lv 1 fun _ _ => rfl
  pre c := iprop(StableHlo.held (c : Thread nD τ) (Pipeline.ucRefs τ sig) (Function.update (Gen.V1 m c) main_v4 (midArr m c)) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from Down.Phi_last (VB m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VB m c) ((fun m c (b : Ref sig .tc) => Gen.V3 m (outs m) c b) m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the end only the core owing nothing is kept of what rides along. -/
theorem hR (c : Dev nD) : (R c : sProp 𝕄) ⊢ iprop(∃ W, owes (c : Thread nD τ) (0 : CellTallies nD τ sig Unit) W) := by
  iintro ⟨-, HO⟩; iexact HO

/-! ## The run -/

-- the launch theorem's implicit arguments are found by unifying its conclusion with this one, which takes unfolding
-- plain definitions in a metavariable's type
set_option backward.isDefEq.respectTransparency.types false in
/-- From any memory with zero counters every weakly fair execution of the program terminates, nothing faulting, with
    the result array at the last boundary's contents and every argument array as launched. -/
theorem run_all : θ_run defs (onTc (τ := τ) (main (F := F))) ⟨m, fun _ => 0, ρ⟩ (fun r => ∀ c : Dev nD,
      r.2.mem ((c.tc : Thread nD τ).loc main_v6) = Gen.V4 m (outs m) c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) Gen.adm (pdats m) () cellOf_inj emb₁ defs₀ 𝒱₀ L lv m ρ main
    (Gen.segs m (outs m) 𝒱₀ L lv (fun _ => R) () (pdats m) (reg0 m) (reg1 m))
    (fun c Q => by
      rewrite [main_chain c, Seg.run_eq_chain,
        show (Gen.segs m (outs m) 𝒱₀ L lv (fun _ => R) () (pdats m) (reg0 m) (reg1 m) c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V4 m (outs m) c))
    (hch := fun c => ⟨.rfl, .rfl, sep_mono (Entails.of_eq (congrArg (StableHlo.held (c : Thread nD τ) (Pipeline.ucRefs τ sig)) (V2_eq m c))) .rfl, .rfl, sep_mono .rfl (hR c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v6) = Gen.V4 m (outs m) c main_v6
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h => h)
  -- the end: each buffer read off the last valuation
  unfold StableHlo.held
  iintro ⟨Hh, HSI⟩
  ihave Hr := (pointsTo_read_all (Pipeline.ucRefs τ sig) (fun b => ((c : Thread nD τ).1, b)) (Gen.V4 m (outs m) c) s') $$ [Hh HSI]
  · isplitl [Hh] <;> iassumption
  icases Hr with ⟨%h, HSI⟩
  imodintro
  isplitr
  · ipureintro
    exact ⟨h (Proc.devRef .tc main_v6) (Finset.mem_filter.mpr ⟨StableHlo.devRef_mem_tcRefs main_v6, by decide⟩),
      (h (Proc.devRef .tc main_arg0) (Finset.mem_filter.mpr ⟨StableHlo.devRef_mem_tcRefs main_arg0, by decide⟩)).trans (Gen.V4_main_arg0 m (outs m) c),
      (h (Proc.devRef .tc main_arg1) (Finset.mem_filter.mpr ⟨StableHlo.devRef_mem_tcRefs main_arg1, by decide⟩)).trans (Gen.V4_main_arg1 m (outs m) c),
      (h (Proc.devRef .tc main_arg2) (Finset.mem_filter.mpr ⟨StableHlo.devRef_mem_tcRefs main_arg2, by decide⟩)).trans (Gen.V4_main_arg2 m (outs m) c),
      (h (Proc.devRef .tc main_arg3) (Finset.mem_filter.mpr ⟨StableHlo.devRef_mem_tcRefs main_arg3, by decide⟩)).trans (Gen.V4_main_arg3 m (outs m) c)⟩
  · iexact HSI

/-- The frame: the program runs and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_all m ρ)

end Cert.KernelIdeal.Whole

end
-- ==== Proof.Spec.lean ====
/-
  The computation both programs perform, written once on the extended reals as a function of the four argument
  arrays: a gated feed-forward block. With `X` the activations (batch, position, feature) and `Wg`, `Wu`, `Wd` the
  three weight matrices, every entry of the result is

    result[b, s, j] = Σ_k gated (Σ_k' X[b, s, k'] · Wg[k', k]) (Σ_k' X[b, s, k'] · Wu[k', k]) · Wd[k, j]

  where `gated x u = (½·x · (1 + tanh (c₁·(x + c₂·x³)))) · u` is the tanh form of GELU applied to the gate
  projection and multiplied by the up projection. Every change of float format is the identity on the extended
  reals, so none appears. The two constants `c₁`, `c₂` are kept as the binary words both programs spell.
-/
import Idealize.ShloMosaic.PureOps.Ideal
import Idealize.ShloMosaic.Lib.ValueIdx

noncomputable section

open scoped BigOperators

namespace Cert.Spec

open Idealize.ShloMosaic Idealize.ShloMosaic.ValueIdx

/-- The activations' shape: batch 4, 2048 positions, 4096 features. -/
abbrev SX : Shape := ⟨3, ![4, 2048, 4096]⟩
/-- A weight matrix's shape. -/
abbrev SW : Shape := ⟨2, ![4096, 4096]⟩

/-- The tanh form of GELU at `x`, times `u`: `(½·x · (1 + tanh (c₁·(x + c₂·((x·x)·x))))) · u`, the products
    grouped as both programs group them. -/
def gated (x u : EReal) : EReal :=
  ((Ideal.ofBits .f32 0x3F000000#32 * x)
      * (Ideal.ofBits .f32 0x3F800000#32
          + Ideal.tanh (Ideal.ofBits .f32 0x3F4C422A#32 * (x + Ideal.ofBits .f32 0x3D372713#32 * ((x * x) * x))))) * u

/-- One entry of a row times a matrix: the sum over the 4096 contracted features. -/
def proj (row : Fin 4096 → EReal) (W : SW.Idx → EReal) (j : Fin 4096) : EReal :=
  ∑ k : Fin 4096, row k * W (ix2 k j)

/-- The gated intermediate at batch `b`, position `s`, feature `k`. -/
def mid (X : SX.Idx → EReal) (Wg Wu : SW.Idx → EReal) (b : Fin 4) (s : Fin 2048) (k : Fin 4096) : EReal :=
  gated (proj (fun k' => X (ix3 b s k')) Wg k) (proj (fun k' => X (ix3 b s k')) Wu k)

/-- The whole block, entry by entry. -/
def result (X : SX.Idx → EReal) (Wg Wu Wd : SW.Idx → EReal) : SX.Idx → EReal :=
  fun i => proj (fun k => mid X Wg Wu (i 0) (i 1) k) Wd (i 2)

end Cert.Spec

end
-- ==== Proof.LibBlockSum.lean ====
/-
  A sum over 4096 consecutive indices, taken in four consecutive blocks of 1024: in any commutative additive monoid
  (the extended reals among them: no subtraction and no finiteness is used) the whole sum is the sum of the four
  block sums. This is the law that joins a contraction accumulated block by block with the same contraction taken
  whole.
-/
import Mathlib.Algebra.BigOperators.Fin

open scoped BigOperators

namespace Cert.LibBlockSum

/-- The index of entry `j` of block `b`. -/
def at4 (b : Fin 4) (j : Fin 1024) : Fin 4096 := ⟨b.val * 1024 + j.val, by omega⟩

/-- The pair (block, entry inside the block), numbered row-major over 4 × 1024, is that index. -/
theorem finProd_eq_at4 (b : Fin 4) (j : Fin 1024) :
    (finProdFinEquiv (b, j) : Fin (4 * 1024)) = at4 b j := by
  apply Fin.ext
  show j.val + 1024 * b.val = b.val * 1024 + j.val
  omega

/-- The whole sum is the sum of the four block sums. -/
theorem sum_blocks {M : Type*} [AddCommMonoid M] (f : Fin 4096 → M) :
    ∑ k : Fin 4096, f k = ∑ b : Fin 4, ∑ j : Fin 1024, f (at4 b j) := by
  have h := Equiv.sum_comp (finProdFinEquiv : Fin 4 × Fin 1024 ≃ Fin (4 * 1024)) f
  rw [← h, Fintype.sum_prod_type]
  refine Finset.sum_congr rfl (fun b _ => Finset.sum_congr rfl (fun j _ => ?_))
  rw [finProd_eq_at4]

/-- The four block sums added one after the other onto zero, as an accumulator does, are the whole sum. -/
theorem acc_blocks {M : Type*} [AddCommMonoid M] (f : Fin 4096 → M) :
    (((0 + ∑ j : Fin 1024, f (at4 0 j)) + ∑ j : Fin 1024, f (at4 1 j)) + ∑ j : Fin 1024, f (at4 2 j)) + ∑ j : Fin 1024, f (at4 3 j)
      = ∑ k : Fin 4096, f k := by
  rw [sum_blocks, Fin.sum_univ_four, zero_add]

end Cert.LibBlockSum
-- ==== Proof.Value.DownValue.lean ====
/-
  What the down-projection region leaves in its result array, at the exact instance: every entry is the whole
  contraction `Σ_k A[r, k] · W[k, j]` over the 4096 features of the region's left operand `A` (the gated
  intermediate) and its weight `W`, although the kernel accumulates it in four blocks of 1024 onto a zeroed scratch.
-/
import proofs.«154968_j42142219108650_1_alg».proof.Proof.Frame.IdealDown
import proofs.«154968_j42142219108650_1_alg».proof.Proof.Spec
import proofs.«154968_j42142219108650_1_alg».proof.Proof.LibBlockSum
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.DownValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The region's left operand (the gated intermediate) and its weight as the region is entered, at their literal types. -/
abbrev opA (c : Dev nD) : Vec Ideal S8192x4096 .bf16 := V c main_v4
abbrev opW (c : Dev nD) : Vec Ideal S4096x4096 .bf16 := V c main_v3

/-- The down projection of the arrays the region is entered with, entry by entry. -/
def G (c : Dev nD) : Vec Ideal S8192x4096 .f32 :=
  fun i => ∑ k : Fin 4096, opA V c (ix2 (⟨(i 0).val, (i 0).isLt⟩ : Fin 8192) k) * opW V c (ix2 k (⟨(i 1).val, (i 1).isLt⟩ : Fin 4096))

/-! ## The contraction's operand indices, axis by axis -/

theorem lhs_dot_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_dot_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_dot_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_dot_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-! ## The payloads at an index -/

/-- The reset value is zero everywhere. -/
theorem zeros_apply (j : S512x1024.Idx) : k1_pay1 (F := Ideal) j = 0 := by
  unfold k1_pay1
  rw [shapeCast_self]
  show Ideal.ofBits .f32 0x00000000#32 = 0
  exact Ideal.ofBits_zero_f32

/-- One accumulation step at an entry: the accumulator's entry plus the row of the left block against the column of the weight block. -/
theorem step_apply (acc : Vec Ideal S512x1024 .f32) (a : Vec Ideal S512x1024 .bf16) (w : Vec Ideal S1024x1024 .bf16)
    (p : Fin 512) (q : Fin 1024) :
    k1_pay2 acc a w (ix2 p q) = acc (ix2 p q) + ∑ kk : Fin 1024, a (ix2 p kk) * w (ix2 kk q) := by
  unfold k1_pay2
  rw [shapeCast_self, shapeCast_self, shapeCast_self, addf_apply]
  simp only [matmul]
  rw [Ideal.matmul_constant_zero_apply, ← Equiv.sum_comp (ValueIdx.contrEquiv1 dot_S512x1024_S1024x1024_S512x1024_1_0_0_1_n_n 1024 rfl rfl).symm]
  refine congrArg (acc (ix2 p q) + ·) (Finset.sum_congr rfl fun kk _ => ?_)
  have hk := ValueIdx.contrEquiv1_symm_val dot_S512x1024_S1024x1024_S512x1024_1_0_0_1_n_n 1024 rfl rfl kk
  have el : dot_S512x1024_S1024x1024_S512x1024_1_0_0_1_n_n.lhsIdx (ix2 p q) ((ValueIdx.contrEquiv1 dot_S512x1024_S1024x1024_S512x1024_1_0_0_1_n_n 1024 rfl rfl).symm kk) = ix2 p kk := funext fun x => Fin.ext (by
    match x with
    | ⟨0, _⟩ => exact lhs_dot_0 _ _
    | ⟨1, _⟩ => exact (lhs_dot_1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm kk) = ix2 kk q := funext fun x => Fin.ext (by
    match x with
    | ⟨0, _⟩ => exact (rhs_dot_0 _ _).trans hk
    | ⟨1, _⟩ => exact rhs_dot_1 _ _)
  rw [el, er]

/-- What is emitted is the accumulator itself. -/
theorem emit_eq (acc : Vec Ideal S512x1024 .f32) : k1_pay3 acc = acc := rfl

/-! ## Where each window's block sits, over the grid -/

/-- The block indices of the three windows at a point: the row block is the point over 16, the column block the point
    over 4 modulo 4, the contracted block the point modulo 4. -/
theorem block_indices : ∀ t : Fin cfg1.N,
    win1_0.index t (0 : Fin 2) = t.val / 16 ∧ win1_0.index t (1 : Fin 2) = t.val % 4
    ∧ win1_1.index t (0 : Fin 2) = t.val % 4 ∧ win1_1.index t (1 : Fin 2) = t.val / 4 % 4
    ∧ win1_2.index t (0 : Fin 2) = t.val / 16 ∧ win1_2.index t (1 : Fin 2) = t.val / 4 % 4 :=
  (by decide +kernel : ∀ t : Fin grid1.N, _)

/-- The two input blocks at a point, at their literal types. -/
abbrev blkA (c : Dev nD) (t : Fin cfg1.N) : Vec Ideal S512x1024 .bf16 := Down.iblk V c 0 t
abbrev blkW (c : Dev nD) (t : Fin cfg1.N) : Vec Ideal S1024x1024 .bf16 := Down.iblk V c 1 t

/-- An entry of the left operand's block is the array's entry in the block's row and contracted ranges. -/
theorem blockA_apply (c : Dev nD) (t : Fin cfg1.N) (p : Fin 512) (kk : Fin 1024) (R : Fin 8192) (K : Fin 4096)
    (hR : R.val = t.val / 16 * 512 + p.val) (hK : K.val = t.val % 4 * 1024 + kk.val) :
    blkA V c t (ix2 p kk) = opA V c (ix2 R K) := by
  obtain ⟨e0, e1, -, -, -, -⟩ := block_indices t
  show V c main_v4 (((cfg1.win 0).blk t).view.emb (ix2 p kk)) = V c main_v4 (ix2 R K)
  refine congrArg (V c main_v4) ?_
  funext a; apply Fin.ext
  match a with
  | ⟨0, _⟩ => show win1_0.index t (0 : Fin 2) * 512 + 1 * p.val = R.val; omega
  | ⟨1, _⟩ => show win1_0.index t (1 : Fin 2) * 1024 + 1 * kk.val = K.val; omega

/-- An entry of the weight's block is the array's entry in the block's contracted and column ranges. -/
theorem blockW_apply (c : Dev nD) (t : Fin cfg1.N) (kk : Fin 1024) (q : Fin 1024) (K : Fin 4096) (C : Fin 4096)
    (hK : K.val = t.val % 4 * 1024 + kk.val) (hC : C.val = t.val / 4 % 4 * 1024 + q.val) :
    blkW V c t (ix2 kk q) = opW V c (ix2 K C) := by
  obtain ⟨-, -, e0, e1, -, -⟩ := block_indices t
  show V c main_v3 (((cfg1.win 1).blk t).view.emb (ix2 kk q)) = V c main_v3 (ix2 K C)
  refine congrArg (V c main_v3) ?_
  funext a; apply Fin.ext
  match a with
  | ⟨0, _⟩ => show win1_1.index t (0 : Fin 2) * 1024 + 1 * kk.val = K.val; omega
  | ⟨1, _⟩ => show win1_1.index t (1 : Fin 2) * 1024 + 1 * q.val = C.val; omega

/-! ## The accumulator at an entry, point by point -/

/-- At a point that does not begin a reduction the accumulator's entry gains that point's block sum. -/
theorem acc_step_apply (c : Dev nD) (t : Fin cfg1.N) (h : ¬t.val % 4 = 0) (p : Fin 512) (q : Fin 1024) :
    Down.accAt V c t.val t.isLt (ix2 p q)
      = Down.accAt V c (t.val - 1) (Nat.lt_of_le_of_lt (Nat.sub_le _ _) t.isLt) (ix2 p q)
        + ∑ kk : Fin 1024, blkA V c t (ix2 p kk) * blkW V c t (ix2 kk q) :=
  (congrFun (Down.accAt_step V c t h) (ix2 p q)).trans (step_apply _ _ _ p q)

/-- At a point that begins a reduction the accumulator's entry is zero plus that point's block sum. -/
theorem acc_reset_apply (c : Dev nD) (t : Fin cfg1.N) (h : t.val % 4 = 0) (p : Fin 512) (q : Fin 1024) :
    Down.accAt V c t.val t.isLt (ix2 p q)
      = 0 + ∑ kk : Fin 1024, blkA V c t (ix2 p kk) * blkW V c t (ix2 kk q) := by
  refine (congrFun (Down.accAt_reset V c t h) (ix2 p q)).trans ?_
  rw [step_apply, zeros_apply]

/-- A point's block sum is the contraction over the features of the block the point is at. -/
theorem block_sum (c : Dev nD) (t : Fin cfg1.N) (b : Fin 4) (hb : t.val % 4 = b.val) (p : Fin 512) (q : Fin 1024)
    (R : Fin 8192) (C : Fin 4096) (hR : R.val = t.val / 16 * 512 + p.val) (hC : C.val = t.val / 4 % 4 * 1024 + q.val) :
    ∑ kk : Fin 1024, blkA V c t (ix2 p kk) * blkW V c t (ix2 kk q)
      = ∑ kk : Fin 1024, opA V c (ix2 R (Cert.LibBlockSum.at4 b kk)) * opW V c (ix2 (Cert.LibBlockSum.at4 b kk) C) :=
  Finset.sum_congr rfl fun kk _ => by
    have hK : (Cert.LibBlockSum.at4 b kk).val = t.val % 4 * 1024 + kk.val := by
      show b.val * 1024 + kk.val = _
      rw [hb]
    rw [blockA_apply V c t p kk R (Cert.LibBlockSum.at4 b kk) hR hK, blockW_apply V c t kk q (Cert.LibBlockSum.at4 b kk) C hK hC]

/-- At a point that ends a reduction the accumulator's entry is the whole contraction: the three points before it
    share its row and column blocks and walk the contracted blocks 0, 1, 2, and it is at block 3. -/
theorem acc_flush_apply (c : Dev nD) (t : Fin cfg1.N) (h3 : t.val % 4 = 3) (p : Fin 512) (q : Fin 1024)
    (R : Fin 8192) (C : Fin 4096) (hR : R.val = t.val / 16 * 512 + p.val) (hC : C.val = t.val / 4 % 4 * 1024 + q.val) :
    Down.accAt V c t.val t.isLt (ix2 p q) = ∑ k : Fin 4096, opA V c (ix2 R k) * opW V c (ix2 k C) := by
  have l2 : t.val - 1 < cfg1.N := Nat.lt_of_le_of_lt (Nat.sub_le _ _) t.isLt
  have l1 : t.val - 1 - 1 < cfg1.N := Nat.lt_of_le_of_lt (Nat.sub_le _ _) l2
  have l0 : t.val - 1 - 1 - 1 < cfg1.N := Nat.lt_of_le_of_lt (Nat.sub_le _ _) l1
  have s3 := acc_step_apply V c t (by omega) p q
  have s2 : Down.accAt V c (t.val - 1) l2 (ix2 p q)
      = Down.accAt V c (t.val - 1 - 1) l1 (ix2 p q)
        + ∑ kk : Fin 1024, blkA V c ⟨t.val - 1, l2⟩ (ix2 p kk) * blkW V c ⟨t.val - 1, l2⟩ (ix2 kk q) :=
    acc_step_apply V c ⟨t.val - 1, l2⟩ (by show ¬(t.val - 1) % 4 = 0; omega) p q
  have s1 : Down.accAt V c (t.val - 1 - 1) l1 (ix2 p q)
      = Down.accAt V c (t.val - 1 - 1 - 1) l0 (ix2 p q)
        + ∑ kk : Fin 1024, blkA V c ⟨t.val - 1 - 1, l1⟩ (ix2 p kk) * blkW V c ⟨t.val - 1 - 1, l1⟩ (ix2 kk q) :=
    acc_step_apply V c ⟨t.val - 1 - 1, l1⟩ (by show ¬(t.val - 1 - 1) % 4 = 0; omega) p q
  have s0 : Down.accAt V c (t.val - 1 - 1 - 1) l0 (ix2 p q)
      = 0 + ∑ kk : Fin 1024, blkA V c ⟨t.val - 1 - 1 - 1, l0⟩ (ix2 p kk) * blkW V c ⟨t.val - 1 - 1 - 1, l0⟩ (ix2 kk q) :=
    acc_reset_apply V c ⟨t.val - 1 - 1 - 1, l0⟩ (by show (t.val - 1 - 1 - 1) % 4 = 0; omega) p q
  have b3 := block_sum V c t 3 (by show t.val % 4 = 3; exact h3) p q R C hR hC
  have b2 := block_sum V c ⟨t.val - 1, l2⟩ 2 (by show (t.val - 1) % 4 = 2; omega) p q R C
    (by show R.val = (t.val - 1) / 16 * 512 + p.val; omega) (by show C.val = (t.val - 1) / 4 % 4 * 1024 + q.val; omega)
  have b1 := block_sum V c ⟨t.val - 1 - 1, l1⟩ 1 (by show (t.val - 1 - 1) % 4 = 1; omega) p q R C
    (by show R.val = (t.val - 1 - 1) / 16 * 512 + p.val; omega) (by show C.val = (t.val - 1 - 1) / 4 % 4 * 1024 + q.val; omega)
  have b0 := block_sum V c ⟨t.val - 1 - 1 - 1, l0⟩ 0 (by show (t.val - 1 - 1 - 1) % 4 = 0; omega) p q R C
    (by show R.val = (t.val - 1 - 1 - 1) / 16 * 512 + p.val; omega) (by show C.val = (t.val - 1 - 1 - 1) / 4 % 4 * 1024 + q.val; omega)
  refine Eq.trans ?_ (Cert.LibBlockSum.acc_blocks (fun k => opA V c (ix2 R k) * opW V c (ix2 k C)))
  rw [s3, s2, s1, s0, b3, b2, b1, b0]

/-! ## From the blocks to the array -/

/-- The whole contraction at an entry, over any spelling of the entry's row and column. -/
theorem G_apply (c : Dev nD) (i : S8192x4096.Idx) (R : Fin 8192) (C : Fin 4096) (hR : R.val = (i 0).val) (hC : C.val = (i 1).val) :
    G V c i = ∑ k : Fin 4096, opA V c (ix2 R k) * opW V c (ix2 k C) := by
  obtain rfl : R = ⟨(i 0).val, (i 0).isLt⟩ := Fin.ext hR
  obtain rfl : C = ⟨(i 1).val, (i 1).isLt⟩ := Fin.ext hC
  rfl

/-- What a point that ends a reduction emits at an entry of its block is the whole contraction at the array's entry there. -/
theorem emitted_apply (c : Dev nD) (t : Fin cfg1.N) (h3 : t.val % 4 = 3) (p : Fin 512) (q : Fin 1024) (i : S8192x4096.Idx)
    (h0 : (i 0).val = t.val / 16 * 512 + p.val) (h1 : (i 1).val = t.val / 4 % 4 * 1024 + q.val) :
    Down.accAt V c t.val t.isLt (ix2 p q) = G V c i :=
  (acc_flush_apply V c t h3 p q ⟨(i 0).val, (i 0).isLt⟩ ⟨(i 1).val, (i 1).isLt⟩ h0 h1).trans (G_apply V c i _ _ rfl rfl).symm

/-- What a point that ends a reduction writes back is its block of the whole contraction. -/
theorem emitted_eq (c : Dev nD) (t : Fin cfg1.N) (hf : (cfg1.win 2).flush t = true) :
    (Down.dat V c).flushed 2 t = ((cfg1.win 2).blk t).view.read (Elt Ideal) (G V c) := by
  have h3 : t.val % 4 = 3 := (flush1_2 t).mp hf
  obtain ⟨-, -, -, -, e0, e1⟩ := block_indices t
  show (cfg1.win 2).cut (grid1.coords t) ((Down.dat V c).after 2 t) = _
  rw [Down.after_2, emit_eq]
  funext y
  obtain ⟨p, q, rfl⟩ : ∃ (p : Fin 512) (q : Fin 1024), y = ix2 p q := ⟨y 0, y 1, eq_ix2 y⟩
  show Down.accAt V c t.val t.isLt (ix2 p q) = G V c (((cfg1.win 2).blk t).view.emb (ix2 p q))
  refine emitted_apply V c t h3 p q _ ?_ ?_
  · show win1_2.index t (0 : Fin 2) * 512 + 1 * p.val = _; omega
  · show win1_2.index t (1 : Fin 2) * 1024 + 1 * q.val = _; omega

/-- An entry of the array is in a point's block iff each coordinate is in the block's range on its axis. -/
theorem mem_block (t : Fin cfg1.N) (i : S8192x4096.Idx) :
    i ∈ ((cfg1.win 2).blk t).view.set ↔ ∀ a : Fin 2, win1_2.index t a * S512x1024.size a ≤ (i a).val ∧ (i a).val < win1_2.index t a * S512x1024.size a + S512x1024.size a := by
  show i ∈ ((View.whole main_v5).slice (win1_2.rect t)).set ↔ _
  rw [View.set_slice_whole, Rect.mem_set_unit]
  exact Iff.rfl

/-- Every entry (r, j) of the array is in the block of the point that ends the reduction of row block r / 512 and column block j / 1024. -/
theorem covered (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  have hN : cfg1.N = 256 := N_1
  have ht : ((i 0).val / 512 * 4 + (i 1).val / 1024) * 4 + 3 < cfg1.N := by omega
  obtain ⟨-, -, -, -, e0, e1⟩ := block_indices ⟨((i 0).val / 512 * 4 + (i 1).val / 1024) * 4 + 3, ht⟩
  have e0' : win1_2.index ⟨((i 0).val / 512 * 4 + (i 1).val / 1024) * 4 + 3, ht⟩ (0 : Fin 2) = (((i 0).val / 512 * 4 + (i 1).val / 1024) * 4 + 3) / 16 := e0
  have e1' : win1_2.index ⟨((i 0).val / 512 * 4 + (i 1).val / 1024) * 4 + 3, ht⟩ (1 : Fin 2) = (((i 0).val / 512 * 4 + (i 1).val / 1024) * 4 + 3) / 4 % 4 := e1
  refine ⟨⟨((i 0).val / 512 * 4 + (i 1).val / 1024) * 4 + 3, ht⟩, (flush1_2 _).mpr (by show (((i 0).val / 512 * 4 + (i 1).val / 1024) * 4 + 3) % 4 = 3; omega), ?_⟩
  rw [mem_block]
  intro a
  match a with
  | ⟨0, _⟩ =>
    show win1_2.index ⟨((i 0).val / 512 * 4 + (i 1).val / 1024) * 4 + 3, ht⟩ (0 : Fin 2) * 512 ≤ (i 0).val ∧ (i 0).val < win1_2.index ⟨((i 0).val / 512 * 4 + (i 1).val / 1024) * 4 + 3, ht⟩ (0 : Fin 2) * 512 + 512
    omega
  | ⟨1, _⟩ =>
    show win1_2.index ⟨((i 0).val / 512 * 4 + (i 1).val / 1024) * 4 + 3, ht⟩ (1 : Fin 2) * 1024 ≤ (i 1).val ∧ (i 1).val < win1_2.index ⟨((i 0).val / 512 * 4 + (i 1).val / 1024) * 4 + 3, ht⟩ (1 : Fin 2) * 1024 + 1024
    omega

/-- The result array after the region's last write-back is that function. -/
theorem arr_eq (c : Dev nD) : (Down.dat (F := Ideal) V c).arrAt 2 cfg1.N = G V c :=
  (Down.dat (F := Ideal) V c).arrAt_eq_of_cover 2 (G V c) (fun t hf => emitted_eq V c t hf) covered

end Cert.KernelIdeal.DownValue

end
-- ==== Proof.Value.GateUpValue.lean ====
/-
  What the gate/up region leaves in the intermediate array, at the exact instance: every entry is the tanh-form GELU
  of the whole gate contraction `Σ_k H[r, k] · Wg[k, j]` times the whole up contraction `Σ_k H[r, k] · Wu[k, j]`,
  although the kernel accumulates each in four blocks of 1024 onto a zeroed scratch and applies the gating only at
  the last block.
-/
import proofs.«154968_j42142219108650_1_alg».proof.Proof.Frame.IdealGateUp
import proofs.«154968_j42142219108650_1_alg».proof.Proof.Spec
import proofs.«154968_j42142219108650_1_alg».proof.Proof.LibBlockSum
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.GateUpValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The activations and the two weights as the region is entered, at their literal types. -/
abbrev opH (c : Dev nD) : Vec Ideal S8192x4096 .f32 := V c main_v0
abbrev opG (c : Dev nD) : Vec Ideal S4096x4096 .bf16 := V c main_v1
abbrev opU (c : Dev nD) : Vec Ideal S4096x4096 .bf16 := V c main_v2

/-- The gated product of the two projections of the arrays the region is entered with, entry by entry. -/
def G (c : Dev nD) : Vec Ideal S8192x4096 .bf16 :=
  fun i => Cert.Spec.gated
    (∑ k : Fin 4096, opH V c (ix2 (⟨(i 0).val, (i 0).isLt⟩ : Fin 8192) k) * opG V c (ix2 k (⟨(i 1).val, (i 1).isLt⟩ : Fin 4096)))
    (∑ k : Fin 4096, opH V c (ix2 (⟨(i 0).val, (i 0).isLt⟩ : Fin 8192) k) * opU V c (ix2 k (⟨(i 1).val, (i 1).isLt⟩ : Fin 4096)))

/-! ## The block product's index maps -/

theorem lhs_blockdot_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_blockdot_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_blockdot_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_blockdot_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A 512 x 1024 block times a 1024 x 1024 block, accumulated into zero, read at row p and column q: the sum over the 1024 shared
    features. -/
theorem blockdot_apply (a : FVec Ideal S512x1024 .bf16) (w : FVec Ideal S1024x1024 .bf16) (p : Fin 512) (q : Fin 1024) :
    matmul dot_S512x1024_S1024x1024_S512x1024_1_0_0_1_n_n none a w (constant (F := Ideal) S512x1024 .f32 0x00000000#32) (ix2 p q)
      = ∑ kk : Fin 1024, a (ix2 p kk) * w (ix2 kk q) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun kk _ => ?_
  have hk := ValueIdx.contrEquiv1_symm_val dot_S512x1024_S1024x1024_S512x1024_1_0_0_1_n_n 1024 rfl rfl kk
  have el : dot_S512x1024_S1024x1024_S512x1024_1_0_0_1_n_n.lhsIdx (ix2 p q) ((ValueIdx.contrEquiv1 dot_S512x1024_S1024x1024_S512x1024_1_0_0_1_n_n 1024 rfl rfl).symm kk) = ix2 p kk := funext fun d => Fin.ext (by
    match d with
    | ⟨0, _⟩ => exact lhs_blockdot_0 _ _
    | ⟨1, _⟩ => exact (lhs_blockdot_1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm kk) = ix2 kk q := funext fun d => Fin.ext (by
    match d with
    | ⟨0, _⟩ => exact (rhs_blockdot_0 _ _).trans hk
    | ⟨1, _⟩ => exact rhs_blockdot_1 _ _)
  rw [el, er]

/-! ## The body's arithmetic at an entry -/

/-- The two reset values are zero everywhere. -/
theorem resetG_apply (j : S512x1024.Idx) : (k0_pay1 (F := Ideal)) j = 0 := by
  unfold k0_pay1
  simp only [shapeCast_self]
  exact Ideal.ofBits_zero_f32
theorem resetU_apply (j : S512x1024.Idx) : (k0_pay2 (F := Ideal)) j = 0 := by
  unfold k0_pay2
  simp only [shapeCast_self]
  exact Ideal.ofBits_zero_f32

/-- The narrowing of the activations' block changes nothing on the extended reals. -/
theorem narrow_apply (h : Vec Ideal S512x1024 .f32) (j : S512x1024.Idx) : k0_pay3 h j = h j := by
  unfold k0_pay3
  simp only [shapeCast_self]
  rfl

/-- One step of the gate accumulator at row p, column q: what it held plus the block's 1024 products. -/
theorem stepG_apply (h acc : Vec Ideal S512x1024 .f32) (w : Vec Ideal S1024x1024 .bf16) (p : Fin 512) (q : Fin 1024) :
    k0_pay4 h acc w (ix2 p q) = acc (ix2 p q) + ∑ kk : Fin 1024, h (ix2 p kk) * w (ix2 kk q) := by
  unfold k0_pay4
  simp only [shapeCast_self]
  refine (addf_apply _ _ _).trans ?_
  refine congrArg (acc (ix2 p q) + ·) ?_
  refine (blockdot_apply _ _ p q).trans ?_
  exact Finset.sum_congr rfl fun kk _ => congrArg (· * w (ix2 kk q)) (narrow_apply h (ix2 p kk))

/-- The same for the up accumulator. -/
theorem stepU_apply (h acc : Vec Ideal S512x1024 .f32) (w : Vec Ideal S1024x1024 .bf16) (p : Fin 512) (q : Fin 1024) :
    k0_pay5 h acc w (ix2 p q) = acc (ix2 p q) + ∑ kk : Fin 1024, h (ix2 p kk) * w (ix2 kk q) := by
  unfold k0_pay5
  simp only [shapeCast_self]
  refine (addf_apply _ _ _).trans ?_
  refine congrArg (acc (ix2 p q) + ·) ?_
  refine (blockdot_apply _ _ p q).trans ?_
  exact Finset.sum_congr rfl fun kk _ => congrArg (· * w (ix2 kk q)) (narrow_apply h (ix2 p kk))

/-- The emitted block, entry by entry: the gating of the two finished accumulators. -/
theorem emit_apply (g u : Vec Ideal S512x1024 .f32) (j : S512x1024.Idx) :
    k0_pay6 g u j = Cert.Spec.gated (g j) (u j) := by
  unfold k0_pay6 Cert.Spec.gated
  rfl

/-! ## The blocks the body is handed, read off their arrays -/

/-- The three input blocks at a point, at their literal types. -/
abbrev hblk (c : Dev nD) (t : Fin cfg0.N) : Vec Ideal S512x1024 .f32 := GateUp.iblk V c 0 t
abbrev gblk (c : Dev nD) (t : Fin cfg0.N) : Vec Ideal S1024x1024 .bf16 := GateUp.iblk V c 1 t
abbrev ublk (c : Dev nD) (t : Fin cfg0.N) : Vec Ideal S1024x1024 .bf16 := GateUp.iblk V c 2 t

/-- Which block each window shows at point t: with t = 16 i + 4 j + b, the activations' block is (i, b), each weight's
    block is (b, j), and the output's block is (i, j). -/
theorem block_index : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val % 4 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- Entry (p, kk) of the activations' block at point t is entry (r, k) of the array, r = (t / 16) · 512 + p and
    k = (t % 4) · 1024 + kk. -/
theorem hblk_apply (c : Dev nD) (t : Fin cfg0.N) (p : Fin 512) (kk : Fin 1024) (r : Fin 8192) (k : Fin 4096)
    (hr : r.val = t.val / 16 * 512 + p.val) (hk : k.val = t.val % 4 * 1024 + kk.val) :
    hblk V c t (ix2 p kk) = opH V c (ix2 r k) := by
  obtain ⟨e0, e1, -⟩ := block_index t
  show V c main_v0 (((cfg0.win 0).blk t).view.emb (ix2 p kk)) = V c main_v0 (ix2 r k)
  refine congrArg (V c main_v0) (funext fun a => Fin.ext ?_)
  match a with
  | ⟨0, _⟩ => show win0_0.index t (0 : Fin 2) * 512 + 1 * p.val = r.val; omega
  | ⟨1, _⟩ => show win0_0.index t (1 : Fin 2) * 1024 + 1 * kk.val = k.val; omega

/-- Entry (kk, q) of the gate weight's block at point t is entry (k, j) of the array, k = (t % 4) · 1024 + kk and
    j = (t / 4 % 4) · 1024 + q. -/
theorem gblk_apply (c : Dev nD) (t : Fin cfg0.N) (kk q : Fin 1024) (k j : Fin 4096)
    (hk : k.val = t.val % 4 * 1024 + kk.val) (hj : j.val = t.val / 4 % 4 * 1024 + q.val) :
    gblk V c t (ix2 kk q) = opG V c (ix2 k j) := by
  obtain ⟨-, -, e0, e1, -⟩ := block_index t
  show V c main_v1 (((cfg0.win 1).blk t).view.emb (ix2 kk q)) = V c main_v1 (ix2 k j)
  refine congrArg (V c main_v1) (funext fun a => Fin.ext ?_)
  match a with
  | ⟨0, _⟩ => show win0_1.index t (0 : Fin 2) * 1024 + 1 * kk.val = k.val; omega
  | ⟨1, _⟩ => show win0_1.index t (1 : Fin 2) * 1024 + 1 * q.val = j.val; omega

/-- The same for the up weight. -/
theorem ublk_apply (c : Dev nD) (t : Fin cfg0.N) (kk q : Fin 1024) (k j : Fin 4096)
    (hk : k.val = t.val % 4 * 1024 + kk.val) (hj : j.val = t.val / 4 % 4 * 1024 + q.val) :
    ublk V c t (ix2 kk q) = opU V c (ix2 k j) := by
  obtain ⟨-, -, -, -, e0, e1, -⟩ := block_index t
  show V c main_v2 (((cfg0.win 2).blk t).view.emb (ix2 kk q)) = V c main_v2 (ix2 k j)
  refine congrArg (V c main_v2) (funext fun a => Fin.ext ?_)
  match a with
  | ⟨0, _⟩ => show win0_2.index t (0 : Fin 2) * 1024 + 1 * kk.val = k.val; omega
  | ⟨1, _⟩ => show win0_2.index t (1 : Fin 2) * 1024 + 1 * q.val = j.val; omega

/-! ## The accumulators at the last point of a reduction -/

/-- The products the gate and the up contraction sum at row r, column j. -/
abbrev termG (c : Dev nD) (r : Fin 8192) (j k : Fin 4096) : EReal := opH V c (ix2 r k) * opG V c (ix2 k j)
abbrev termU (c : Dev nD) (r : Fin 8192) (j k : Fin 4096) : EReal := opH V c (ix2 r k) * opU V c (ix2 k j)

/-- Two spellings of one point give the same accumulator. -/
theorem accG_congr (c : Dev nD) {n n' : ℕ} (e : n = n') (hn : n < cfg0.N) (hn' : n' < cfg0.N) :
    GateUp.accG V c n hn = GateUp.accG V c n' hn' := by subst e; rfl
theorem accU_congr (c : Dev nD) {n n' : ℕ} (e : n = n') (hn : n < cfg0.N) (hn' : n' < cfg0.N) :
    GateUp.accU V c n hn = GateUp.accU V c n' hn' := by subst e; rfl

/-- One step of the gate accumulator at point u, whose reduction coordinate is b: entry (p, q) gains block b's part of
    the contraction at the array's row r and column j that (p, q) stands for. -/
theorem stepG_point (c : Dev nD) (u : Fin cfg0.N) (acc : Vec Ideal S512x1024 .f32) (p : Fin 512) (q : Fin 1024)
    (r : Fin 8192) (j : Fin 4096) (b : Fin 4) (hb : u.val % 4 = b.val) (hr : r.val = u.val / 16 * 512 + p.val)
    (hj : j.val = u.val / 4 % 4 * 1024 + q.val) :
    k0_pay4 (hblk V c u) acc (gblk V c u) (ix2 p q)
      = acc (ix2 p q) + ∑ kk : Fin 1024, termG V c r j (Cert.LibBlockSum.at4 b kk) := by
  refine (stepG_apply _ _ _ p q).trans ?_
  refine congrArg (acc (ix2 p q) + ·) (Finset.sum_congr rfl fun kk _ => ?_)
  have hk : (Cert.LibBlockSum.at4 b kk).val = u.val % 4 * 1024 + kk.val := by
    show b.val * 1024 + kk.val = _; rw [hb]
  rw [hblk_apply V c u p kk r (Cert.LibBlockSum.at4 b kk) hr hk, gblk_apply V c u kk q (Cert.LibBlockSum.at4 b kk) j hk hj]

theorem stepU_point (c : Dev nD) (u : Fin cfg0.N) (acc : Vec Ideal S512x1024 .f32) (p : Fin 512) (q : Fin 1024)
    (r : Fin 8192) (j : Fin 4096) (b : Fin 4) (hb : u.val % 4 = b.val) (hr : r.val = u.val / 16 * 512 + p.val)
    (hj : j.val = u.val / 4 % 4 * 1024 + q.val) :
    k0_pay5 (hblk V c u) acc (ublk V c u) (ix2 p q)
      = acc (ix2 p q) + ∑ kk : Fin 1024, termU V c r j (Cert.LibBlockSum.at4 b kk) := by
  refine (stepU_apply _ _ _ p q).trans ?_
  refine congrArg (acc (ix2 p q) + ·) (Finset.sum_congr rfl fun kk _ => ?_)
  have hk : (Cert.LibBlockSum.at4 b kk).val = u.val % 4 * 1024 + kk.val := by
    show b.val * 1024 + kk.val = _; rw [hb]
  rw [hblk_apply V c u p kk r (Cert.LibBlockSum.at4 b kk) hr hk, ublk_apply V c u kk q (Cert.LibBlockSum.at4 b kk) j hk hj]

/-- At the last point t of a reduction (t ≡ 3 mod 4) the gate accumulator's entry (p, q) is the WHOLE contraction at
    the array's row r = (t / 16) · 512 + p and column j = (t / 4 % 4) · 1024 + q: the three points before t belong to
    the same reduction, with reduction coordinates 0, 1, 2, so the entry is the four block sums added onto zero. -/
theorem accG_last (c : Dev nD) (t : Fin cfg0.N) (h3 : t.val % 4 = 3) (p : Fin 512) (q : Fin 1024)
    (r : Fin 8192) (j : Fin 4096) (hr : r.val = t.val / 16 * 512 + p.val) (hj : j.val = t.val / 4 % 4 * 1024 + q.val) :
    GateUp.accG V c t.val t.isLt (ix2 p q) = ∑ k : Fin 4096, termG V c r j k := by
  have hN : cfg0.N = 256 := N_0
  have ht := t.isLt
  obtain ⟨t2, ht2⟩ : ∃ u : Fin cfg0.N, u.val = t.val - 1 := ⟨⟨t.val - 1, by omega⟩, rfl⟩
  obtain ⟨t1, ht1⟩ : ∃ u : Fin cfg0.N, u.val = t.val - 2 := ⟨⟨t.val - 2, by omega⟩, rfl⟩
  obtain ⟨t0, ht0⟩ : ∃ u : Fin cfg0.N, u.val = t.val - 3 := ⟨⟨t.val - 3, by omega⟩, rfl⟩
  have e0 : GateUp.accG V c t0.val t0.isLt (ix2 p q) = 0 + ∑ kk : Fin 1024, termG V c r j (Cert.LibBlockSum.at4 0 kk) := by
    rw [GateUp.accG_reset V c t0 (by omega)]
    refine (stepG_point V c t0 _ p q r j 0 (by show t0.val % 4 = 0; omega) (by omega) (by omega)).trans ?_
    rw [resetG_apply]
  have e1 : GateUp.accG V c t1.val t1.isLt (ix2 p q)
      = (0 + ∑ kk : Fin 1024, termG V c r j (Cert.LibBlockSum.at4 0 kk)) + ∑ kk : Fin 1024, termG V c r j (Cert.LibBlockSum.at4 1 kk) := by
    rw [GateUp.accG_step V c t1 (by omega), accG_congr V c (show t1.val - 1 = t0.val by omega) _ t0.isLt]
    refine (stepG_point V c t1 _ p q r j 1 (by show t1.val % 4 = 1; omega) (by omega) (by omega)).trans ?_
    rw [e0]
  have e2 : GateUp.accG V c t2.val t2.isLt (ix2 p q)
      = ((0 + ∑ kk : Fin 1024, termG V c r j (Cert.LibBlockSum.at4 0 kk)) + ∑ kk : Fin 1024, termG V c r j (Cert.LibBlockSum.at4 1 kk))
        + ∑ kk : Fin 1024, termG V c r j (Cert.LibBlockSum.at4 2 kk) := by
    rw [GateUp.accG_step V c t2 (by omega), accG_congr V c (show t2.val - 1 = t1.val by omega) _ t1.isLt]
    refine (stepG_point V c t2 _ p q r j 2 (by show t2.val % 4 = 2; omega) (by omega) (by omega)).trans ?_
    rw [e1]
  rw [GateUp.accG_step V c t (by omega), accG_congr V c ht2.symm _ t2.isLt]
  refine (stepG_point V c t _ p q r j 3 (by show t.val % 4 = 3; omega) hr hj).trans ?_
  rw [e2]
  exact Cert.LibBlockSum.acc_blocks (fun k => termG V c r j k)

/-- The same for the up accumulator, with the up weight. -/
theorem accU_last (c : Dev nD) (t : Fin cfg0.N) (h3 : t.val % 4 = 3) (p : Fin 512) (q : Fin 1024)
    (r : Fin 8192) (j : Fin 4096) (hr : r.val = t.val / 16 * 512 + p.val) (hj : j.val = t.val / 4 % 4 * 1024 + q.val) :
    GateUp.accU V c t.val t.isLt (ix2 p q) = ∑ k : Fin 4096, termU V c r j k := by
  have hN : cfg0.N = 256 := N_0
  have ht := t.isLt
  obtain ⟨t2, ht2⟩ : ∃ u : Fin cfg0.N, u.val = t.val - 1 := ⟨⟨t.val - 1, by omega⟩, rfl⟩
  obtain ⟨t1, ht1⟩ : ∃ u : Fin cfg0.N, u.val = t.val - 2 := ⟨⟨t.val - 2, by omega⟩, rfl⟩
  obtain ⟨t0, ht0⟩ : ∃ u : Fin cfg0.N, u.val = t.val - 3 := ⟨⟨t.val - 3, by omega⟩, rfl⟩
  have e0 : GateUp.accU V c t0.val t0.isLt (ix2 p q) = 0 + ∑ kk : Fin 1024, termU V c r j (Cert.LibBlockSum.at4 0 kk) := by
    rw [GateUp.accU_reset V c t0 (by omega)]
    refine (stepU_point V c t0 _ p q r j 0 (by show t0.val % 4 = 0; omega) (by omega) (by omega)).trans ?_
    rw [resetU_apply]
  have e1 : GateUp.accU V c t1.val t1.isLt (ix2 p q)
      = (0 + ∑ kk : Fin 1024, termU V c r j (Cert.LibBlockSum.at4 0 kk)) + ∑ kk : Fin 1024, termU V c r j (Cert.LibBlockSum.at4 1 kk) := by
    rw [GateUp.accU_step V c t1 (by omega), accU_congr V c (show t1.val - 1 = t0.val by omega) _ t0.isLt]
    refine (stepU_point V c t1 _ p q r j 1 (by show t1.val % 4 = 1; omega) (by omega) (by omega)).trans ?_
    rw [e0]
  have e2 : GateUp.accU V c t2.val t2.isLt (ix2 p q)
      = ((0 + ∑ kk : Fin 1024, termU V c r j (Cert.LibBlockSum.at4 0 kk)) + ∑ kk : Fin 1024, termU V c r j (Cert.LibBlockSum.at4 1 kk))
        + ∑ kk : Fin 1024, termU V c r j (Cert.LibBlockSum.at4 2 kk) := by
    rw [GateUp.accU_step V c t2 (by omega), accU_congr V c (show t2.val - 1 = t1.val by omega) _ t1.isLt]
    refine (stepU_point V c t2 _ p q r j 2 (by show t2.val % 4 = 2; omega) (by omega) (by omega)).trans ?_
    rw [e1]
  rw [GateUp.accU_step V c t (by omega), accU_congr V c ht2.symm _ t2.isLt]
  refine (stepU_point V c t _ p q r j 3 (by show t.val % 4 = 3; omega) hr hj).trans ?_
  rw [e2]
  exact Cert.LibBlockSum.acc_blocks (fun k => termU V c r j k)

/-! ## From the emitted blocks to the array -/

/-- The specification's entry at an index whose coordinates are r and j. -/
theorem G_apply (c : Dev nD) (i : S8192x4096.Idx) (r : Fin 8192) (j : Fin 4096) (hr : r.val = (i 0).val) (hj : j.val = (i 1).val) :
    G V c i = Cert.Spec.gated (∑ k : Fin 4096, termG V c r j k) (∑ k : Fin 4096, termU V c r j k) := by
  obtain rfl : r = ⟨(i 0).val, (i 0).isLt⟩ := Fin.ext hr
  obtain rfl : j = ⟨(i 1).val, (i 1).isLt⟩ := Fin.ext hj
  rfl

/-- What a point that writes the output back writes is its block of the specification. -/
theorem flushed_eq (c : Dev nD) (t : Fin cfg0.N) (hf : (cfg0.win 3).flush t = true) :
    (GateUp.dat (F := Ideal) V c).flushed 3 t = ((cfg0.win 3).blk t).view.read (Elt Ideal) (G V c) := by
  have h3 : t.val % 4 = 3 := (flush0_3 t).mp hf
  have hN : cfg0.N = 256 := N_0
  have ht := t.isLt
  obtain ⟨-, -, -, -, -, -, e0, e1⟩ := block_index t
  show (cfg0.win 3).cut (grid0.coords t) ((GateUp.dat (F := Ideal) V c).after 3 t) = _
  rw [GateUp.after_3]
  funext y
  obtain ⟨p, q, rfl⟩ : ∃ (p : Fin 512) (q : Fin 1024), y = ix2 p q := ⟨y 0, y 1, eq_ix2 y⟩
  show k0_pay6 (GateUp.accG V c t.val t.isLt) (GateUp.accU V c t.val t.isLt) (ix2 p q)
    = G V c (((cfg0.win 3).blk t).view.emb (ix2 p q))
  have hp := p.isLt
  have hq := q.isLt
  obtain ⟨r, hr⟩ : ∃ r : Fin 8192, r.val = t.val / 16 * 512 + p.val := ⟨⟨t.val / 16 * 512 + p.val, by omega⟩, rfl⟩
  obtain ⟨j, hj⟩ : ∃ j : Fin 4096, j.val = t.val / 4 % 4 * 1024 + q.val := ⟨⟨t.val / 4 % 4 * 1024 + q.val, by omega⟩, rfl⟩
  rw [G_apply V c _ r j
    (by show r.val = win0_3.index t (0 : Fin 2) * 512 + 1 * p.val; omega)
    (by show j.val = win0_3.index t (1 : Fin 2) * 1024 + 1 * q.val; omega)]
  refine (emit_apply _ _ _).trans ?_
  rw [accG_last V c t h3 p q r j hr hj, accU_last V c t h3 p q r j hr hj]

/-- An entry of the array is in the output's block at point t iff each coordinate is in the block's range. -/
theorem mem_out_blk (t : Fin cfg0.N) (i : S8192x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v4).slice (win0_3.rect t)).set ↔ _
  rw [View.set_slice_whole, Rect.mem_set_unit]
  exact Iff.rfl

/-- Every entry (r, j) of the array is in the block written back at the last point of the reduction for row block
    r / 512 and column block j / 1024. -/
theorem covered (i : S8192x4096.Idx) :
    ∃ t : Fin cfg0.N, (cfg0.win 3).flush t = true ∧ i ∈ ((cfg0.win 3).blk t).view.set := by
  have hN : cfg0.N = 256 := N_0
  have hi0 : (i 0).val < 8192 := (i 0).isLt
  have hi1 : (i 1).val < 4096 := (i 1).isLt
  obtain ⟨t, ht⟩ : ∃ t : Fin cfg0.N, t.val = ((i 0).val / 512 * 4 + (i 1).val / 1024) * 4 + 3 :=
    ⟨⟨((i 0).val / 512 * 4 + (i 1).val / 1024) * 4 + 3, by omega⟩, rfl⟩
  obtain ⟨-, -, -, -, -, -, e0, e1⟩ := block_index t
  refine ⟨t, (flush0_3 t).mpr (by omega), ?_⟩
  rw [mem_out_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The intermediate array after the region's last write-back is that function. -/
theorem arr_eq (c : Dev nD) : (GateUp.dat (F := Ideal) V c).arrAt 3 cfg0.N = G V c := by
  exact (GateUp.dat (F := Ideal) V c).arrAt_eq_of_cover 3 (G V c) (fun t hf => flushed_eq V c t hf) covered

end Cert.KernelIdeal.GateUpValue

end
-- ==== Proof.Value.WholeValue.lean ====
/-
  The idealized kernel's result array as a function of its four argument arrays: the specification. The chain of
  boundary contents is opened from the end: the last reshape reads the result array the down region left; that is the
  whole contraction of the intermediate array with the down weight; the intermediate array is what the gate/up region
  left, the gated product of the two whole contractions of the flattened activations with the gate and up weights; the
  flattening is the first host reshape (row `b · 2048 + s` of the flat array is position `s` of batch `b`), and the
  three weights are the arguments through a change of float format, the identity on extended reals.
-/
import proofs.«154968_j42142219108650_1_alg».proof.Proof.Frame.IdealRun
import proofs.«154968_j42142219108650_1_alg».proof.Proof.Value.DownValue
import proofs.«154968_j42142219108650_1_alg».proof.Proof.Value.GateUpValue
import proofs.«154968_j42142219108650_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.WholeValue

open Cert.KernelIdeal Cert.KernelIdeal.Gen
open Idealize.ShloMosaic Idealize.ShloMosaic.TcCoe Idealize.ShloMosaic.ValueIdx
open Idealize.SL Idealize.SL.Sem

/-! ## The two reshapes read at an index -/

section Casts
variable {α : Type}

/-- Row `b · 2048 + s` of the flat array, as an index below 8192. -/
abbrev row (b : Fin 4) (s : Fin 2048) : Fin 8192 := ⟨b.val * 2048 + s.val, by omega⟩

/-- The flat array cast to three axes reads, at `(b, s, j)`, the flat array at `(b · 2048 + s, j)`. -/
theorem unflatten_apply (x : S8192x4096.Idx → α) (h : S8192x4096.ShapeCasts S4x2048x4096)
    (b : Fin 4) (s : Fin 2048) (j : Fin 4096) :
    shapeCast S4x2048x4096 x h (ix3 b s j) = x (ix2 (row b s) j) :=
  shapeCast_apply x h _ _ (by
    rw [Shape.rowMajor_val_two, Shape.rowMajor_val_three]
    show (b.val * 2048 + s.val) * 4096 + j.val = (b.val * 2048 + s.val) * 4096 + j.val
    rfl)

/-- The three-axis array cast to the flat shape reads, at `(b · 2048 + s, k)`, the array at `(b, s, k)`. -/
theorem flatten_apply (x : S4x2048x4096.Idx → α) (h : S4x2048x4096.ShapeCasts S8192x4096)
    (b : Fin 4) (s : Fin 2048) (k : Fin 4096) :
    shapeCast S8192x4096 x h (ix2 (row b s) k) = x (ix3 b s k) :=
  shapeCast_apply x h _ _ (by
    rw [Shape.rowMajor_val_two, Shape.rowMajor_val_three]
    show (b.val * 2048 + s.val) * 4096 + k.val = (b.val * 2048 + s.val) * 4096 + k.val
    rfl)

end Casts

/-! ## The host stretches over any contents -/

section Host
variable (W : Valuation τ sig (Elt Ideal))

/-- The last reshape: the result array is the flat result cast to three axes. -/
theorem tail_v6 : (StableHlo.after (hostOps2 (F := Ideal)) W main_v6 : Vec Ideal S4x2048x4096 .f32)
    = shapeCast S4x2048x4096 (W main_v5 : Vec Ideal S8192x4096 .f32) shapeCasts_S8192x4096_S4x2048x4096 := by
  dsimp only [hostOps2]; after_results; rfl

/-- The first reshape: the flat activations are the activations cast to two axes. -/
theorem head_v0 : (StableHlo.after (hostOps0 (F := Ideal)) W main_v0 : Vec Ideal S8192x4096 .f32)
    = shapeCast S8192x4096 (W main_arg0 : Vec Ideal S4x2048x4096 .f32) shapeCasts_S4x2048x4096_S8192x4096 := by
  dsimp only [hostOps0]; after_results; rfl

/-- The three format changes are the identity on extended reals, entry by entry. -/
theorem head_v1 (i : S4096x4096.Idx) : (StableHlo.after (hostOps0 (F := Ideal)) W main_v1 : Vec Ideal S4096x4096 .bf16) i
    = (W main_arg1 : Vec Ideal S4096x4096 .f32) i := by
  dsimp only [hostOps0]; after_results; rfl
theorem head_v2 (i : S4096x4096.Idx) : (StableHlo.after (hostOps0 (F := Ideal)) W main_v2 : Vec Ideal S4096x4096 .bf16) i
    = (W main_arg2 : Vec Ideal S4096x4096 .f32) i := by
  dsimp only [hostOps0]; after_results; rfl
theorem head_v3 (i : S4096x4096.Idx) : (StableHlo.after (hostOps0 (F := Ideal)) W main_v3 : Vec Ideal S4096x4096 .bf16) i
    = (W main_arg3 : Vec Ideal S4096x4096 .f32) i := by
  dsimp only [hostOps0]; after_results; rfl

end Host

/-! ## The assembly over variables -/

section Assemble

/-- Given each boundary array read at an index — the flat activations `H` as the activations `X`, the three
    converted weights as the weights, the intermediate `A` as the gated product of the two whole contractions, the flat
    result `R` as the whole contraction of `A` with the down weight, and the result `Y` as `R` by rows —, the result
    is the specification of `X` and the three weights. -/
theorem assemble (X Y : Vec Ideal S4x2048x4096 .f32) (Wg Wu Wd : Vec Ideal S4096x4096 .f32)
    (H R : Vec Ideal S8192x4096 .f32) (G' U' D' : Vec Ideal S4096x4096 .bf16) (A : Vec Ideal S8192x4096 .bf16)
    (hH : ∀ (b : Fin 4) (s : Fin 2048) (k : Fin 4096), H (ix2 (row b s) k) = X (ix3 b s k))
    (hG : ∀ i, G' i = Wg i) (hU : ∀ i, U' i = Wu i) (hD : ∀ i, D' i = Wd i)
    (hA : ∀ (r : Fin 8192) (k : Fin 4096), A (ix2 r k)
      = Cert.Spec.gated (∑ k' : Fin 4096, H (ix2 r k') * G' (ix2 k' k)) (∑ k' : Fin 4096, H (ix2 r k') * U' (ix2 k' k)))
    (hR : ∀ (r : Fin 8192) (j : Fin 4096), R (ix2 r j) = ∑ k : Fin 4096, A (ix2 r k) * D' (ix2 k j))
    (hY : ∀ (b : Fin 4) (s : Fin 2048) (j : Fin 4096), Y (ix3 b s j) = R (ix2 (row b s) j)) :
    Y = Cert.Spec.result X Wg Wu Wd := by
  funext i
  obtain ⟨b, s, j, rfl⟩ : ∃ (b : Fin 4) (s : Fin 2048) (j : Fin 4096), i = ix3 b s j := ⟨i 0, i 1, i 2, eq_ix3 i⟩
  rw [hY, hR]
  show _ = Cert.Spec.proj (fun k => Cert.Spec.mid X Wg Wu b s k) Wd j
  unfold Cert.Spec.proj
  refine Finset.sum_congr rfl fun k _ => ?_
  rw [hA, hD]
  unfold Cert.Spec.mid Cert.Spec.proj
  refine congrArg (· * Wd (ix2 k j)) ?_
  refine congrArg₂ Cert.Spec.gated (Finset.sum_congr rfl fun k' _ => ?_) (Finset.sum_congr rfl fun k' _ => ?_)
  · rw [hH, hG]
  · rw [hH, hU]

end Assemble

/-! ## The boundary arrays of this launch -/

variable (m : (ℓ : Loc nD τ sig) → Buf (Elt Ideal) ℓ)

/-- The four argument arrays as launched, at their literal types. -/
abbrev argX (c : Dev nD) : Vec Ideal S4x2048x4096 .f32 := m ((c.tc : Thread nD τ).loc main_arg0)
abbrev argG (c : Dev nD) : Vec Ideal S4096x4096 .f32 := m ((c.tc : Thread nD τ).loc main_arg1)
abbrev argU (c : Dev nD) : Vec Ideal S4096x4096 .f32 := m ((c.tc : Thread nD τ).loc main_arg2)
abbrev argD (c : Dev nD) : Vec Ideal S4096x4096 .f32 := m ((c.tc : Thread nD τ).loc main_arg3)

/-- After the first host operations: the flat activations and the three converted weights; -/
abbrev flatX (c : Dev nD) : Vec Ideal S8192x4096 .f32 := Gen.V1 m c main_v0
abbrev cvG (c : Dev nD) : Vec Ideal S4096x4096 .bf16 := Gen.V1 m c main_v1
abbrev cvU (c : Dev nD) : Vec Ideal S4096x4096 .bf16 := Gen.V1 m c main_v2
abbrev cvD (c : Dev nD) : Vec Ideal S4096x4096 .bf16 := Gen.V1 m c main_v3
/-- what the gate/up region leaves in the intermediate array, and the down region in the flat result. -/
abbrev midA (c : Dev nD) : Vec Ideal S8192x4096 .bf16 := Whole.midArr m c
abbrev flatR (c : Dev nD) : Vec Ideal S8192x4096 .f32 := Whole.finArr m c

/-- Row `b · 2048 + s` of the flat activations is position `s` of batch `b`. -/
theorem flatX_apply (c : Dev nD) (b : Fin 4) (s : Fin 2048) (k : Fin 4096) :
    flatX m c (ix2 (row b s) k) = argX m c (ix3 b s k) := by
  have e : flatX m c = shapeCast S8192x4096 (argX m c) shapeCasts_S4x2048x4096_S8192x4096 := head_v0 (Gen.V0 m c)
  rw [e, flatten_apply]

/-- Each converted weight is its argument, entry by entry. -/
theorem cvG_apply (c : Dev nD) (i : S4096x4096.Idx) : cvG m c i = argG m c i := head_v1 (Gen.V0 m c) i
theorem cvU_apply (c : Dev nD) (i : S4096x4096.Idx) : cvU m c i = argU m c i := head_v2 (Gen.V0 m c) i
theorem cvD_apply (c : Dev nD) (i : S4096x4096.Idx) : cvD m c i = argD m c i := head_v3 (Gen.V0 m c) i

/-- The intermediate array is the gated product of the two whole contractions of the flat activations with the
    converted gate and up weights: the gate/up region's value at the contents it is entered with. -/
theorem midA_apply (c : Dev nD) (r : Fin 8192) (k : Fin 4096) :
    midA m c (ix2 r k) = Cert.Spec.gated (∑ k' : Fin 4096, flatX m c (ix2 r k') * cvG m c (ix2 k' k))
      (∑ k' : Fin 4096, flatX m c (ix2 r k') * cvU m c (ix2 k' k)) := by
  have e : midA m c = GateUpValue.G (Whole.VA m) c := GateUpValue.arr_eq (Whole.VA m) c
  rw [e]
  rfl

/-- The flat result is the whole contraction of the intermediate array with the converted down weight: the down
    region's value at the contents it is entered with, where the intermediate array is what the first region left and
    the down weight is untouched by it. -/
theorem flatR_apply (c : Dev nD) (r : Fin 8192) (j : Fin 4096) :
    flatR m c (ix2 r j) = ∑ k : Fin 4096, midA m c (ix2 r k) * cvD m c (ix2 k j) := by
  have e : flatR m c = DownValue.G (Whole.VB m) c := DownValue.arr_eq (Whole.VB m) c
  have eA : DownValue.opA (Whole.VB m) c = midA m c := by
    show Function.update (Gen.V1 m c) main_v4 (Whole.midArr m c) main_v4 = _
    rw [Function.update_self]
  have eW : DownValue.opW (Whole.VB m) c = cvD m c := by
    show Function.update (Gen.V1 m c) main_v4 (Whole.midArr m c) main_v3 = _
    rw [Function.update_of_ne (StableHlo.devRef_ne_of_ne (by decide))]
  rw [e]
  show ∑ k : Fin 4096, DownValue.opA (Whole.VB m) c (ix2 r k) * DownValue.opW (Whole.VB m) c (ix2 k j) = _
  rw [eA, eW]

/-- The result array at the last boundary reads, at `(b, s, j)`, the flat result at row `b · 2048 + s`: the last
    reshape of what the down region left. -/
theorem last_apply (c : Dev nD) (b : Fin 4) (s : Fin 2048) (j : Fin 4096) :
    (Gen.V4 m (Whole.outs m) c main_v6 : Vec Ideal S4x2048x4096 .f32) (ix3 b s j) = flatR m c (ix2 (row b s) j) := by
  have e6 : (Gen.V4 m (Whole.outs m) c main_v6 : Vec Ideal S4x2048x4096 .f32)
      = shapeCast S4x2048x4096 (Gen.V3 m (Whole.outs m) c main_v5 : Vec Ideal S8192x4096 .f32) shapeCasts_S8192x4096_S4x2048x4096 :=
    tail_v6 (Gen.V3 m (Whole.outs m) c)
  have e5 : (Gen.V3 m (Whole.outs m) c main_v5 : Vec Ideal S8192x4096 .f32) = flatR m c := by
    show Function.update (Gen.V2 m (Whole.outs m) c) main_v5 (Whole.outs m 3 main_v5 c) main_v5 = _
    rw [Function.update_self, Whole.outs_v5]
  rw [e6, e5, unflatten_apply]

/-- The result array at the last boundary is the specification of the launch arrays. -/
theorem result_eq (c : Dev nD) :
    (Gen.V4 m (Whole.outs m) c main_v6 : Vec Ideal S4x2048x4096 .f32)
      = Cert.Spec.result (argX m c) (argG m c) (argU m c) (argD m c) :=
  assemble (argX m c) _ (argG m c) (argU m c) (argD m c) (flatX m c) (flatR m c) (cvG m c) (cvU m c) (cvD m c) (midA m c)
    (flatX_apply m c) (cvG_apply m c) (cvU_apply m c) (cvD_apply m c) (midA_apply m c) (flatR_apply m c) (last_apply m c)

end Cert.KernelIdeal.WholeValue

end
-- ==== Proof.RefValue.lean ====
/-
  The reference's result is the specification. The reference program, read on the extended reals (every change of
  float format the identity, every operation exact), is a chain of fifty-one stages. Stages 0..4 and 7..11 are the
  two projections of a row of the activations by the gate and the up weights; stages 5..38 apply, entry by entry,
  the tanh form of GELU to the gate projection; stages 39..45 multiply by the up projection; stages 46..50 are the
  last projection by the down weights. Read at an index, the chain is the one formula of the specification.
-/
import proofs.«154968_j42142219108650_1_alg».proof.Proof.Gen.ReferenceIdeal.Read
import proofs.«154968_j42142219108650_1_alg».proof.Proof.Spec
import Idealize.ShloMosaic.Lib.ValueIdx
import Idealize.ShloMosaic.PureOps.Ideal.Laws

noncomputable section

open scoped BigOperators

namespace Cert.RefValue

open Cert.ReferenceIdeal Cert.ReferenceIdeal.Read Idealize.ShloMosaic Idealize.ShloMosaic.ValueIdx

/-! ## The contraction's index functions are the coordinate constructors -/

/-- Left operand of a projection at output entry `(b, s, j)`, contracted feature `k`: the row entry `(b, s, k)`. -/
theorem lidx_v4 (b : Fin 4) (s : Fin 2048) (j k : Fin 4096) : lidx_main_v4 (ix3 b s j) k = ix3 b s k :=
  funext fun a => Fin.ext (by match a with | ⟨0, _⟩ => rfl | ⟨1, _⟩ => rfl | ⟨2, _⟩ => rfl)
/-- Right operand of a projection at output entry `(b, s, j)`, contracted feature `k`: the weight entry `(k, j)`. -/
theorem ridx_v4 (b : Fin 4) (s : Fin 2048) (j k : Fin 4096) : ridx_main_v4 (ix3 b s j) k = ix2 k j :=
  funext fun a => Fin.ext (by match a with | ⟨0, _⟩ => rfl | ⟨1, _⟩ => rfl)
theorem lidx_v11 (b : Fin 4) (s : Fin 2048) (j k : Fin 4096) : lidx_main_v11 (ix3 b s j) k = ix3 b s k :=
  funext fun a => Fin.ext (by match a with | ⟨0, _⟩ => rfl | ⟨1, _⟩ => rfl | ⟨2, _⟩ => rfl)
theorem ridx_v11 (b : Fin 4) (s : Fin 2048) (j k : Fin 4096) : ridx_main_v11 (ix3 b s j) k = ix2 k j :=
  funext fun a => Fin.ext (by match a with | ⟨0, _⟩ => rfl | ⟨1, _⟩ => rfl)
theorem lidx_v48 (b : Fin 4) (s : Fin 2048) (j k : Fin 4096) : lidx_main_v48 (ix3 b s j) k = ix3 b s k :=
  funext fun a => Fin.ext (by match a with | ⟨0, _⟩ => rfl | ⟨1, _⟩ => rfl | ⟨2, _⟩ => rfl)
theorem ridx_v48 (b : Fin 4) (s : Fin 2048) (j k : Fin 4096) : ridx_main_v48 (ix3 b s j) k = ix2 k j :=
  funext fun a => Fin.ext (by match a with | ⟨0, _⟩ => rfl | ⟨1, _⟩ => rfl)

/-! ## The two inner projections -/

/-- Stage 4 is the gate projection: the sum over `k` of `X[b, s, k] · Wg[k, j]`. -/
theorem v4_eq (x0 : (⟨S4x2048x4096, .f32⟩ : BufTy).Contents (Elt Ideal)) (x1 : (⟨S4096x4096, .f32⟩ : BufTy).Contents (Elt Ideal))
    (b : Fin 4) (s : Fin 2048) (j : Fin 4096) :
    val_main_v4 (F := Ideal) x0 x1 (ix3 b s j) = Cert.Spec.proj (fun k' => x0 (ix3 b s k')) x1 j := by
  rw [val_main_v4_apply]
  unfold Cert.Spec.proj
  refine Finset.sum_congr rfl fun k _ => ?_
  rw [lidx_v4, ridx_v4, val_main_v1_apply, val_main_v0_apply, val_main_v3_apply, val_main_v2_apply]
  simp only [Ideal.truncf_def, Ideal.extf_def]

/-- Stage 11 is the up projection: the sum over `k` of `X[b, s, k] · Wu[k, j]`. -/
theorem v11_eq (x0 : (⟨S4x2048x4096, .f32⟩ : BufTy).Contents (Elt Ideal)) (x2 : (⟨S4096x4096, .f32⟩ : BufTy).Contents (Elt Ideal))
    (b : Fin 4) (s : Fin 2048) (j : Fin 4096) :
    val_main_v11 (F := Ideal) x0 x2 (ix3 b s j) = Cert.Spec.proj (fun k' => x0 (ix3 b s k')) x2 j := by
  rw [val_main_v11_apply]
  unfold Cert.Spec.proj
  refine Finset.sum_congr rfl fun k _ => ?_
  rw [lidx_v11, ridx_v11, val_main_v8_apply, val_main_v7_apply, val_main_v10_apply, val_main_v9_apply]
  simp only [Ideal.truncf_def, Ideal.extf_def]

/-! ## The entrywise chain -/

/-- Stage 15 is stage 4 (the gate projection) through four changes of format. -/
theorem v15_eq (x0 : (⟨S4x2048x4096, .f32⟩ : BufTy).Contents (Elt Ideal)) (x1 : (⟨S4096x4096, .f32⟩ : BufTy).Contents (Elt Ideal))
    (i : S4x2048x4096.Idx) :
    val_main_v15 (F := Ideal) x0 x1 i = val_main_v4 (F := Ideal) x0 x1 i := by
  rw [val_main_v15_apply, val_main_v14_apply, val_main_v6_apply, val_main_v5_apply]
  simp only [Ideal.truncf_def, Ideal.extf_def]

/-- Stage 45 is the gated product: with `x` the gate projection (stage 4) and `u` the up projection (stage 11) at the
    same entry, stages 16..19 are `(x·x)·x`, 20..22 `x + c₂·x³`, 23..29 `tanh (c₁·…)`, 30..31 `½·x`, 32..33
    `1 + tanh …`, 34..38 their product, 39..40 `u`, 41..45 the product with `u`. -/
theorem v45_eq (x0 : (⟨S4x2048x4096, .f32⟩ : BufTy).Contents (Elt Ideal)) (x1 x2 : (⟨S4096x4096, .f32⟩ : BufTy).Contents (Elt Ideal))
    (i : S4x2048x4096.Idx) :
    val_main_v45 (F := Ideal) x0 x1 x2 i
      = Cert.Spec.gated (val_main_v4 (F := Ideal) x0 x1 i) (val_main_v11 (F := Ideal) x0 x2 i) := by
  rw [val_main_v45_apply, val_main_v44_apply, val_main_v43_apply, val_main_v42_apply, val_main_v41_apply,
    val_main_v40_apply, val_main_v39_apply, val_main_v13_apply, val_main_v12_apply,
    val_main_v38_apply, val_main_v37_apply, val_main_v36_apply, val_main_v35_apply, val_main_v34_apply,
    val_main_v33_apply, val_main_v32_apply, val_main_cst_2_apply, val_main_v31_apply, val_main_v30_apply, val_main_cst_1_apply,
    val_main_v29_apply, val_main_v28_apply, val_main_v27_apply, val_main_v26_apply, val_main_v25_apply, val_main_v24_apply,
    val_main_v23_apply, val_main_cst_0_apply, val_main_v22_apply, val_main_v21_apply, val_main_v20_apply, val_main_cst_apply,
    val_main_v19_apply, val_main_v18_apply, val_main_v17_apply, val_main_v16_apply]
  simp only [v15_eq, Ideal.truncf_def, Ideal.extf_def, Ideal.mulf_def, Ideal.addf_def, Ideal.hostUnary_tanh_def,
    Ideal.ofBits_def]
  rfl

/-! ## The whole block -/

/-- The reference's last stage, entry by entry, is the last projection of the gated intermediate by the down weights:
    the specification's `result`. -/
theorem ref_eq (x0 : (⟨Cert.ReferenceIdeal.S4x2048x4096, .f32⟩ : BufTy).Contents (Elt Ideal))
    (x1 x2 x3 : (⟨Cert.ReferenceIdeal.S4096x4096, .f32⟩ : BufTy).Contents (Elt Ideal)) :
    Cert.ReferenceIdeal.Read.val_main_v50 (F := Ideal) x0 x1 x2 x3 = Cert.Spec.result x0 x1 x2 x3 := by
  funext i
  obtain ⟨b, s, j, rfl⟩ : ∃ (b : Fin 4) (s : Fin 2048) (j : Fin 4096), i = ix3 b s j := ⟨i 0, i 1, i 2, eq_ix3 i⟩
  rw [val_main_v50_apply, val_main_v49_apply, val_main_v48_apply]
  simp only [Ideal.truncf_def, Ideal.extf_def]
  unfold Cert.Spec.result Cert.Spec.proj Cert.Spec.mid
  refine Finset.sum_congr rfl fun k _ => ?_
  rw [lidx_v48, ridx_v48, v45_eq, v4_eq, v11_eq, val_main_v47_apply, val_main_v46_apply]
  simp only [Ideal.truncf_def, Ideal.extf_def]

end Cert.RefValue

end
-- ==== Proof.lean ====
/-
  A gated feed-forward block, `out = (gelu_tanh (X·Wg) ⊙ (X·Wu)) · Wd` with `X` of shape (4, 2048, 4096) and three
  4096 × 4096 weights, computed by two tiled matrix-product kernels against a plain reference that round-trips every
  intermediate through bf16.

  The kernel flattens `X` to 8192 rows and narrows the weights to bf16 on the host. Its first region walks a
  16 × 4 × 4 grid: for each 512-row, 1024-column output block it accumulates the gate and the up products over four
  1024-wide slices of the contracted axis in two scratch accumulators, and at the last slice stores
  `(½·x · (1 + tanh (c₁·(x + c₂·x³)))) · u` of the finished accumulators `x`, `u`. Its second region accumulates
  the down product the same way. A last host reshape restores the three axes.

  On the extended reals a change of float format is the identity, so the reference computes the same three
  contractions and the same gating, entry by entry, with the same constants (both sides spell the same binary words).
  What differs is only that the kernel adds four block sums onto zero where the reference sums all 4096 terms: equal
  in any commutative additive monoid, so no finiteness of the inputs is used.

    frame_Kernel, frame_KernelIdeal — the program as a run over named boundary contents (Proof/Frame): each region's
      body obligation from three runs of its body (first, middle and last slice of a reduction), the accumulators
      carried from point to point by the region's invariant.
    frame_ReferenceIdeal — the reference's generated run, its result dropped.
    preserves_Kernel_KernelIdeal — the eight bf16 round trips the idealization erased, each its rule's statement.
    algebraic_KernelIdeal_ReferenceIdeal — the kernel's result array is the specification (Proof/Spec.lean) of its
      argument arrays (Proof/Value), and so is the reference's (Proof/RefValue.lean).
-/
import proofs.«154968_j42142219108650_1_alg».proof.Defs
import proofs.«154968_j42142219108650_1_alg».proof.Proof.Gen.Kernel
import proofs.«154968_j42142219108650_1_alg».proof.Proof.Gen.KernelIdeal
import proofs.«154968_j42142219108650_1_alg».proof.Proof.Gen.ReferenceIdeal
import proofs.«154968_j42142219108650_1_alg».proof.Proof.Gen.Pre_finite_inputs
import proofs.«154968_j42142219108650_1_alg».proof.Proof.Gen.ReferenceIdeal.Run
import proofs.«154968_j42142219108650_1_alg».proof.Proof.Gen.ReferenceIdeal.Read
import proofs.«154968_j42142219108650_1_alg».proof.Proof.Frame.BitsRun
import proofs.«154968_j42142219108650_1_alg».proof.Proof.Frame.IdealRun
import proofs.«154968_j42142219108650_1_alg».proof.Proof.Value.WholeValue
import proofs.«154968_j42142219108650_1_alg».proof.Proof.RefValue
import Idealize.ShloMosaic.PureOps.IdealRules

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Whole.frame m ρ

/-- So does its idealization. -/
theorem frame_ideal : Cert.frame_KernelIdeal := fun m ρ _ => Cert.KernelIdeal.Whole.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Each erased bf16 round trip is the identity on extended reals and the bf16 rounding on words. -/
theorem preserves : Cert.preserves_Kernel_KernelIdeal :=
  have st := IdealRules.truncf_extf.statement Cert.KernelIdeal.S512x1024 .f32 .bf16
  ⟨st, st, st, st, st, st, st, st⟩

/-- Both idealized programs end with the specification of the (agreeing) argument arrays in their result array. -/
theorem algebraic : Cert.algebraic_KernelIdeal_ReferenceIdeal := by
  intro m ρ m' ρ' _ hagree
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.WholeValue.result_eq m c), (h c).2⟩)
      (Cert.KernelIdeal.Whole.run_all m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v50_eq (F := Ideal) _ _ _ _).trans ((Cert.RefValue.ref_eq _ _ _ _).trans ?_)
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
